-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 57
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S100000x128, .f32⟩
  | .hbm, ⟨35, _⟩ => ⟨S1x128, .f32⟩
  | .hbm, ⟨36, _⟩ => ⟨S1x128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .i1⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/- The mathematics both programs compute, over plain coordinates and the extended reals.

   A graph layer on 100000 nodes with 128 features: `msg i k` is the sum of the features of node i's in-neighbours and
   `cnt i` their number; the neighbour mean divides by max(cnt, 1). Two dense maps (weights `wl`, `wr`, stored output
   feature first, and a bias `bl`) give the pre-activation `h`. Batch normalisation over the node axis then needs, per
   feature j, the mean `mu j` of column j and its (biased) variance, after which an affine map with `gam`, `bet` and a
   leaky rectifier of slope 0.01 finish the layer.

   The variance is written twice: as the mean of squares minus the square of the mean (`outK`), with the affine map
   pre-combined into a scale and a shift; and as the mean of squared deviations (`outR`), with the affine map applied to the
   centred value. Over the reals the two agree; that is proved elsewhere, for real-valued inputs. -/
import Idealize.ShloMosaic.PureOps.Ideal
import Idealize.ShloMosaic.Lib.ValueIdx

noncomputable section

open scoped BigOperators

namespace Cert.Spec

open Idealize.ShloMosaic

/-- The float words the two programs share, as extended reals: 0, 1, the node count 100000, the variance guard
    (the float nearest 1e-5) and the rectifier's slope (the float nearest 0.01). -/
abbrev zeroW : EReal := Ideal.ofBits .f32 0x00000000#32
abbrev oneW : EReal := Ideal.ofBits .f32 0x3F800000#32
abbrev nodesW : EReal := Ideal.ofBits .f32 0x47C35000#32
abbrev epsW : EReal := Ideal.ofBits .f32 0x3727C5AC#32
abbrev slopeW : EReal := Ideal.ofBits .f32 0x3C23D70A#32

/-- The leaky rectifier: y where 0 ≤ y, slope · y elsewhere. -/
def leaky (y : EReal) : EReal := Scalar.select (Ideal.cmp .oge y zeroW) y (slopeW * y)

section

variable (msg : Fin 100000 → Fin 128 → EReal) (cnt : Fin 100000 → EReal) (x : Fin 100000 → Fin 128 → EReal)
  (wl wr : Fin 128 → Fin 128 → EReal) (bl gam bet : Fin 128 → EReal)

/-- The neighbour mean: the summed messages over the neighbour count, the count raised to at least 1. -/
def mean (i : Fin 100000) (k : Fin 128) : EReal := Ideal.div (msg i k) (max (cnt i) oneW)

/-- The pre-activation: the mean through `wl`, the node's own features through `wr`, plus the bias. -/
def h (i : Fin 100000) (j : Fin 128) : EReal :=
  ((∑ k : Fin 128, mean msg cnt i k * wl j k) + ∑ k : Fin 128, x i k * wr j k) + bl j

/-- Column sums of the pre-activation and of its square. -/
def s1 (j : Fin 128) : EReal := ∑ i : Fin 100000, h msg cnt x wl wr bl i j
def s2 (j : Fin 128) : EReal := ∑ i : Fin 100000, h msg cnt x wl wr bl i j * h msg cnt x wl wr bl i j

/-- The column mean. -/
def mu (j : Fin 128) : EReal := Ideal.div (s1 msg cnt x wl wr bl j) nodesW

/-- First form: variance as mean of squares minus squared mean; scale and shift pre-combined. -/
def scale (j : Fin 128) : EReal :=
  gam j * Ideal.rsqrt ((Ideal.div (s2 msg cnt x wl wr bl j) nodesW - mu msg cnt x wl wr bl j * mu msg cnt x wl wr bl j) + epsW)
def shift (j : Fin 128) : EReal := bet j - mu msg cnt x wl wr bl j * scale msg cnt x wl wr bl gam j
def outK (i : Fin 100000) (j : Fin 128) : EReal :=
  leaky (h msg cnt x wl wr bl i j * scale msg cnt x wl wr bl gam j + shift msg cnt x wl wr bl gam bet j)

/-- Second form: variance as the mean of squared deviations; the affine map on the centred value. -/
def dev2 (j : Fin 128) : EReal :=
  ∑ i : Fin 100000, (h msg cnt x wl wr bl i j - mu msg cnt x wl wr bl j) * (h msg cnt x wl wr bl i j - mu msg cnt x wl wr bl j)
def outR (i : Fin 100000) (j : Fin 128) : EReal :=
  leaky ((gam j * (h msg cnt x wl wr bl i j - mu msg cnt x wl wr bl j))
      * Ideal.rsqrt (Ideal.div (dev2 msg cnt x wl wr bl j) nodesW + epsW) + bet j)

end

end Cert.Spec

end
-- ==== Proof.KernelNames.lean ====
/- Names for the arrays the two kernels read and write, as functions of plain coordinates into the extended reals.

   Region 0 (the first kernel) reads the summed messages, the neighbour counts (as a column), the node features,
   the two transposed weight matrices and the bias (as a row); region 1 (the second kernel) reads the pre-activation and
   a scale row and a shift row. Each is named at its literal type so that arithmetic on its entries is arithmetic on
   extended reals. `hblk` is the block of 2000 rows of the pre-activation the first kernel computes at a grid point. -/
import proofs.«165079_j24068996727347_1_alg».proof.Proof.Gen.KernelIdeal.Frame
import proofs.«165079_j24068996727347_1_alg».proof.Proof.Spec
import Idealize.ShloMosaic.Lib.ValueIdx

set_option maxRecDepth 16384

noncomputable section

namespace Cert.KernelIdeal.Names

open Cert.KernelIdeal Cert.KernelIdeal.Gen
open Idealize.ShloMosaic Idealize.ShloMosaic.TcCoe Idealize.ShloMosaic.ValueIdx Idealize.SL.Sem

section Regions
variable (V : (c : Dev nD) → (b : Ref sig .tc) → Buf (Elt Ideal) ((c : Thread nD τ).loc b))

/-- The six input arrays of region 0. The weights are held transposed (input feature first), so entry (j, k) of the
    untransposed matrix is entry (k, j) of the array. -/
abbrev msgV (c : Dev nD) : Fin 100000 → Fin 128 → EReal := fun i k => V c main_v13 (ix2 i k)
abbrev cntV (c : Dev nD) : Fin 100000 → EReal := fun i => V c main_v18 (ix2 i (0 : Fin 1))
abbrev xV (c : Dev nD) : Fin 100000 → Fin 128 → EReal := fun i k => V c main_arg0 (ix2 i k)
abbrev wlV (c : Dev nD) : Fin 128 → Fin 128 → EReal := fun j k => V c main_v19 (ix2 k j)
abbrev wrV (c : Dev nD) : Fin 128 → Fin 128 → EReal := fun j k => V c main_v20 (ix2 k j)
abbrev blV (c : Dev nD) : Fin 128 → EReal := fun j => V c main_v21 (ix2 (0 : Fin 1) j)

/-- The three input arrays of region 1. -/
abbrev hV (c : Dev nD) : Fin 100000 → Fin 128 → EReal := fun i j => V c main_v22_0 (ix2 i j)
abbrev scaleV (c : Dev nD) : Fin 128 → EReal := fun j => V c main_v37 (ix2 (0 : Fin 1) j)
abbrev shiftV (c : Dev nD) : Fin 128 → EReal := fun j => V c main_v38 (ix2 (0 : Fin 1) j)

/-- Region 0's input blocks at a grid point, at their literal types. -/
abbrev b0 (c : Dev nD) (t : Fin cfg0.N) : Vec Ideal S2000x128 .f32 := iblk0 V c 0 t
abbrev b1 (c : Dev nD) (t : Fin cfg0.N) : Vec Ideal S2000x1 .f32 := iblk0 V c 1 t
abbrev b2 (c : Dev nD) (t : Fin cfg0.N) : Vec Ideal S2000x128 .f32 := iblk0 V c 2 t
abbrev b3 (c : Dev nD) (t : Fin cfg0.N) : Vec Ideal S128x128 .f32 := iblk0 V c 3 t
abbrev b4 (c : Dev nD) (t : Fin cfg0.N) : Vec Ideal S1x128 .f32 := iblk0 V c 4 t
abbrev b5 (c : Dev nD) (t : Fin cfg0.N) : Vec Ideal S128x128 .f32 := iblk0 V c 5 t

/-- The block of 2000 rows of the pre-activation computed at grid point t. -/
abbrev hblk (c : Dev nD) (t : Fin cfg0.N) : Vec Ideal S2000x128 .f32 :=
  k0_pay4 (F := Ideal) (b1 V c t) (b0 V c t) (b2 V c t) (b3 V c t) (b5 V c t) (b4 V c t)

end Regions

variable (m : (ℓ : Loc nD τ sig) → Buf (Elt Ideal) ℓ) (ρ : Dev nD → PrngReg)

/-- The affine parameters as launched, and the two accumulated rows the first kernel leaves. -/
abbrev gamM (c : Dev nD) : Fin 128 → EReal := fun j => m ((c.tc : Thread nD τ).loc main_arg5) (ix1 j)
abbrev betM (c : Dev nD) : Fin 128 → EReal := fun j => m ((c.tc : Thread nD τ).loc main_arg6) (ix1 j)
abbrev s1W (c : Dev nD) : Fin 128 → EReal := fun j => W2 m ρ c (Proc.devRef .tc main_v22_1) (ix2 (0 : Fin 1) j)
abbrev s2W (c : Dev nD) : Fin 128 → EReal := fun j => W2 m ρ c (Proc.devRef .tc main_v22_2) (ix2 (0 : Fin 1) j)

end Cert.KernelIdeal.Names

end
-- ==== Proof.Algebra.lean ====
/- The two forms of the layer agree on real-valued inputs.

   Every input is the coercion of a real, so every intermediate quantity is too: the neighbour mean (division by a real
   that is at least 1 is multiplication by its reciprocal), the pre-activation (finite sums and products of reals), the
   column sums, the column mean and the sum of squared deviations. Over the reals, with N the number of rows and
   μ = (∑ f) / N, one has ∑ (f − μ)² = ∑ f² − N μ², so the mean of squares minus the squared mean is the mean of the
   squared deviations. That common variance is nonnegative, the guard added to it is positive, so the reciprocal square
   root is taken at a positive real and is itself a real. What is left is the identity
   H·(g·r) + (b − μ·(g·r)) = (g·(H − μ))·r + b, which holds in any commutative ring. -/
import proofs.«165079_j24068996727347_1_alg».proof.Proof.Spec
import Idealize.ShloMosaic.PureOps.Ideal
import Idealize.ShloMosaic.PureOps.Ideal.Laws
import Mathlib.Data.EReal.Basic
import Mathlib.Data.EReal.Operations
import Mathlib.Algebra.BigOperators.Ring.Finset
import Mathlib.Algebra.Order.BigOperators.Ring.Finset
import Mathlib.Tactic.Ring
import Mathlib.Tactic.FieldSimp
import Mathlib.Tactic.Linarith
import Mathlib.Tactic.Positivity
import Mathlib.Tactic.NormNum

noncomputable section

open scoped BigOperators

namespace Cert.Spec

open Idealize.ShloMosaic

/-! ### The float words as reals -/

/-- The pattern of 1.0 denotes the real 1. -/
theorem oneW_eq : oneW = ((1 : ℝ) : EReal) := by
  simp [oneW, Ideal.ofBits, Ideal.ieee, -EReal.coe_mul]; norm_num

/-- The pattern of 100000.0 denotes the real 100000 (12800000 · 2⁻⁷). -/
theorem nodesW_eq : nodesW = ((100000 : ℝ) : EReal) := by
  simp [nodesW, Ideal.ofBits, Ideal.ieee, -EReal.coe_mul]; norm_num

/-- The variance guard is a normal positive float: a positive real. -/
theorem epsW_eq : ∃ e : ℝ, 0 < e ∧ epsW = (e : EReal) := by
  simp [epsW, Ideal.ofBits, Ideal.ieee, -EReal.coe_mul]

/-- The rectifier's slope is a finite float: a real. -/
theorem slopeW_eq : ∃ s : ℝ, slopeW = (s : EReal) := by
  simp [slopeW, Ideal.ofBits, Ideal.ieee, -EReal.coe_mul]

/-! ### Coercion and finite sums; the variance identity over the reals -/

/-- A finite sum of coerced reals is the coercion of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion commutes with `max` (it is monotone). -/
theorem coe_max (a b : ℝ) : max ((a : ℝ) : EReal) ((b : ℝ) : EReal) = ((max a b : ℝ) : EReal) :=
  (EReal.coe_strictMono.monotone.map_max).symm

/-- Over the reals, with N the number of indices and μ = (∑ f)/N: the mean of squares minus μ² is the mean of the
    squared deviations from μ, because ∑ (f − μ)² = ∑ f² − 2 μ ∑ f + N μ² and ∑ f = N μ. -/
theorem var_two_forms {ι : Type*} [Fintype ι] (f : ι → ℝ) (N : ℝ) (hN : N ≠ 0) (hc : (Fintype.card ι : ℝ) = N) :
    (∑ i, f i * f i) * (1 / N) - ((∑ i, f i) * (1 / N)) * ((∑ i, f i) * (1 / N))
      = (∑ i, (f i - (∑ i, f i) * (1 / N)) * (f i - (∑ i, f i) * (1 / N))) * (1 / N) := by
  generalize hS : (∑ i, f i) = S
  generalize hμ : S * (1 / N) = μ
  have hsq : ∀ i, (f i - μ) * (f i - μ) = f i * f i - 2 * μ * f i + μ * μ := fun i => by ring
  have h1 : ∑ i, (f i - μ) * (f i - μ) = (∑ i, f i * f i) - 2 * μ * S + N * (μ * μ) := by
    simp only [hsq, Finset.sum_add_distrib, Finset.sum_sub_distrib, ← Finset.mul_sum, Finset.sum_const,
      Finset.card_univ, nsmul_eq_mul, hc, hS]
    ring
  rw [h1, ← hμ]
  field_simp
  ring

/-- The mean of squared deviations is nonnegative. -/
theorem var_nonneg {ι : Type*} [Fintype ι] (f : ι → ℝ) (μ N : ℝ) (hN : 0 < N) :
    0 ≤ (∑ i, (f i - μ) * (f i - μ)) * (1 / N) :=
  mul_nonneg (Finset.sum_nonneg fun i _ => mul_self_nonneg _) (by positivity)

/-- The reciprocal square root at a nonnegative real plus a positive real is the coerced real (√(v+e))⁻¹. -/
theorem rsqrt_guarded (v e : ℝ) (hv : 0 ≤ v) (he : 0 < e) :
    Ideal.rsqrt (((v : ℝ) : EReal) + ((e : ℝ) : EReal)) = (((Real.sqrt (v + e))⁻¹ : ℝ) : EReal) := by
  rw [← EReal.coe_add, Ideal.rsqrt_coe, if_neg (not_lt.mpr (by linarith)), if_neg (ne_of_gt (by linarith))]

/-! ### The real quantities behind the layer -/

section

variable (msg : Fin 100000 → Fin 128 → ℝ) (cnt : Fin 100000 → ℝ) (x : Fin 100000 → Fin 128 → ℝ)
  (wl wr : Fin 128 → Fin 128 → ℝ) (bl : Fin 128 → ℝ)

/-- The pre-activation over the reals. -/
def hR (i : Fin 100000) (j : Fin 128) : ℝ :=
  ((∑ k : Fin 128, (msg i k * (1 / max (cnt i) 1)) * wl j k) + ∑ k : Fin 128, x i k * wr j k) + bl j

/-- The column mean over the reals. -/
def muR (j : Fin 128) : ℝ := (∑ i : Fin 100000, hR msg cnt x wl wr bl i j) * (1 / 100000)

/-- The neighbour mean of real inputs is a real: the count raised to at least 1 is not zero. -/
theorem mean_coe (i : Fin 100000) (k : Fin 128) :
    mean (fun i k => ((msg i k : ℝ) : EReal)) (fun i => ((cnt i : ℝ) : EReal)) i k
      = ((msg i k * (1 / max (cnt i) 1) : ℝ) : EReal) := by
  have hpos : max (cnt i) 1 ≠ 0 := ne_of_gt (lt_of_lt_of_le one_pos (le_max_right _ _))
  simp only [mean]
  rw [oneW_eq, coe_max, Ideal.div_coe hpos, ← EReal.coe_mul]

/-- The pre-activation of real inputs is the coerced real pre-activation. -/
theorem h_coe (i : Fin 100000) (j : Fin 128) :
    h (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal)) i j
      = ((hR msg cnt x wl wr bl i j : ℝ) : EReal) := by
  simp only [h, hR, mean_coe, ← EReal.coe_mul, coe_sum, ← EReal.coe_add]

/-- The column mean of real inputs is the coerced real column mean. -/
theorem mu_coe (j : Fin 128) :
    mu (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal)) j
      = ((muR msg cnt x wl wr bl j : ℝ) : EReal) := by
  simp only [mu, s1, muR, h_coe, coe_sum]
  rw [nodesW_eq, Ideal.div_coe (by norm_num), ← EReal.coe_mul]

/-- The mean of squares, over the reals. -/
theorem s2_div_coe (j : Fin 128) :
    Ideal.div (s2 (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal)) j) nodesW
      = (((∑ i : Fin 100000, hR msg cnt x wl wr bl i j * hR msg cnt x wl wr bl i j) * (1 / 100000) : ℝ) : EReal) := by
  simp only [s2, h_coe, ← EReal.coe_mul, coe_sum]
  rw [nodesW_eq, Ideal.div_coe (by norm_num), ← EReal.coe_mul]

/-- The mean of squared deviations, over the reals. -/
theorem dev2_div_coe (j : Fin 128) :
    Ideal.div (dev2 (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal)) j) nodesW
      = (((∑ i : Fin 100000, (hR msg cnt x wl wr bl i j - muR msg cnt x wl wr bl j)
            * (hR msg cnt x wl wr bl i j - muR msg cnt x wl wr bl j)) * (1 / 100000) : ℝ) : EReal) := by
  simp only [dev2, h_coe, mu_coe, ← EReal.coe_sub, ← EReal.coe_mul, coe_sum]
  rw [nodesW_eq, Ideal.div_coe (by norm_num), ← EReal.coe_mul]

/-- The two variances are one real. -/
theorem var_eq (j : Fin 128) :
    (∑ i : Fin 100000, hR msg cnt x wl wr bl i j * hR msg cnt x wl wr bl i j) * (1 / 100000)
        - muR msg cnt x wl wr bl j * muR msg cnt x wl wr bl j
      = (∑ i : Fin 100000, (hR msg cnt x wl wr bl i j - muR msg cnt x wl wr bl j)
            * (hR msg cnt x wl wr bl i j - muR msg cnt x wl wr bl j)) * (1 / 100000) := by
  unfold muR
  exact var_two_forms (fun i => hR msg cnt x wl wr bl i j) 100000 (by norm_num) (by simp)

end

/-! ### The two forms agree -/

theorem outK_eq_outR (msg : Fin 100000 → Fin 128 → ℝ) (cnt : Fin 100000 → ℝ) (x : Fin 100000 → Fin 128 → ℝ)
    (wl wr : Fin 128 → Fin 128 → ℝ) (bl gam bet : Fin 128 → ℝ) (i : Fin 100000) (j : Fin 128) :
    outK (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal))
        (fun j => ((gam j : ℝ) : EReal)) (fun j => ((bet j : ℝ) : EReal)) i j
      = outR (fun i k => ((msg i k : ℝ) : EReal)) (fun i => ((cnt i : ℝ) : EReal)) (fun i k => ((x i k : ℝ) : EReal))
        (fun j k => ((wl j k : ℝ) : EReal)) (fun j k => ((wr j k : ℝ) : EReal)) (fun j => ((bl j : ℝ) : EReal))
        (fun j => ((gam j : ℝ) : EReal)) (fun j => ((bet j : ℝ) : EReal)) i j := by
  obtain ⟨e, he, hE⟩ := epsW_eq
  have hv := var_nonneg (fun i => hR msg cnt x wl wr bl i j) (muR msg cnt x wl wr bl j) 100000 (by norm_num)
  simp only [outK, outR, scale, shift]
  rw [s2_div_coe, dev2_div_coe, h_coe, mu_coe, hE, ← EReal.coe_mul, ← EReal.coe_sub, var_eq,
    rsqrt_guarded _ e hv he]
  simp only [← EReal.coe_mul, ← EReal.coe_sub, ← EReal.coe_add]
  congr 2
  ring

end Cert.Spec

end
-- ==== Proof.RefValue.lean ====
/- The reference program's result read at one entry, as the second form of the layer's mathematics.

   Stage by stage, each array the reference computes is read at coordinates and identified with the matching
   definition over plain coordinates: the neighbour mean, the pre-activation, the column mean, the mean of squared
   deviations, the normalised and affinely mapped value, and the leaky rectifier of it. The two scatter sums (the summed
   messages and the neighbour counts) are carried as they are: nothing here looks inside them. -/
import proofs.«165079_j24068996727347_1_alg».proof.Proof.Gen.ReferenceIdeal.Read
import proofs.«165079_j24068996727347_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

section Stages

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

/-! ## The inputs and the two scatter sums over plain coordinates -/

/-- The summed messages of node i, feature k. -/
private abbrev msg : Fin 100000 → Fin 128 → EReal := fun i k => val_main_v13 (F := Ideal) x0 x1 (ix2 i k)
/-- The number of in-neighbours of node i. -/
private abbrev cnt : Fin 100000 → EReal := fun i => val_main_v17 (F := Ideal) x1 (ix1 i)
/-- A matrix's entries by row and column. -/
private abbrev mat {a b : Nat} (x : (⟨⟨2, ![a, b]⟩, .f32⟩ : BufTy).Contents (Elt Ideal)) : Fin a → Fin b → EReal := fun p q => x (ix2 p q)
/-- A vector's entries. -/
private abbrev vec {a : Nat} (x : (⟨⟨1, ![a]⟩, .f32⟩ : BufTy).Contents (Elt Ideal)) : Fin a → EReal := fun p => x (ix1 p)

/-! ## Layout steps read at coordinates -/

/-- The clamped count, laid as a column and then across the features, reads at (i, k) the clamped count of node i. -/
private theorem v21_at (i : Fin 100000) (k : Fin 128) :
    val_main_v21 (F := Ideal) x1 (ix2 i k) = val_main_v19 (F := Ideal) x1 (ix1 i) := by
  rw [val_main_v21_apply, val_main_v20_apply]
  exact congrArg (val_main_v19 (F := Ideal) x1) (funext fun a => Fin.ext (by match a with | ⟨0, _⟩ => rfl))

/-- The first weight matrix transposed reads at (k, j) its entry (j, k). -/
private theorem v23_at (k j : Fin 128) : val_main_v23 (F := Ideal) x2 (ix2 k j) = x2 (ix2 j k) := by
  rw [val_main_v23_apply]
  exact congrArg x2 (funext fun a => Fin.ext (by match a with | ⟨0, _⟩ => rfl | ⟨1, _⟩ => rfl))

/-- The second weight matrix transposed reads at (k, j) its entry (j, k). -/
private theorem v28_at (k j : Fin 128) : val_main_v28 (F := Ideal) x4 (ix2 k j) = x4 (ix2 j k) := by
  rw [val_main_v28_apply]
  exact congrArg x4 (funext fun a => Fin.ext (by match a with | ⟨0, _⟩ => rfl | ⟨1, _⟩ => rfl))

/-- The bias laid along every row reads at (i, j) its entry j. -/
private theorem v26_at (i : Fin 100000) (j : Fin 128) : val_main_v26 (F := Ideal) x3 (ix2 i j) = x3 (ix1 j) := by
  rw [val_main_v26_apply, val_main_v25_apply]
  exact congrArg x3 (funext fun a => Fin.ext (by match a with | ⟨0, _⟩ => rfl))

/-! ## The neighbour mean and the pre-activation -/

/-- The neighbour mean at (i, k): the summed messages over the count raised to at least 1. -/
private theorem mean_at (i : Fin 100000) (k : Fin 128) :
    val_main_v22 (F := Ideal) x0 x1 (ix2 i k) = Cert.Spec.mean (msg x0 x1) (cnt x1) i k := by
  rw [val_main_v22_apply, v21_at, val_main_v19_apply, val_main_v18_apply, val_main_cst_3_apply]
  rfl

/-- The pre-activation at (i, j). The reference adds the bias before the second product; the sum is regrouped. -/
private theorem h_at (i : Fin 100000) (j : Fin 128) :
    val_main_v30 (F := Ideal) x0 x1 x2 x3 x4 (ix2 i j)
      = Cert.Spec.h (msg x0 x1) (cnt x1) (mat x0) (mat x2) (mat x4) (vec x3) i j := by
  rw [val_main_v30_apply, val_main_v27_apply, val_main_v24_apply, v26_at, val_main_v29_apply, Ideal.addf_def, Ideal.addf_def,
    add_right_comm]
  unfold Cert.Spec.h
  refine congrArg₂ (· + ·) (congrArg₂ (· + ·) (Finset.sum_congr rfl fun k _ => ?_) (Finset.sum_congr rfl fun k _ => ?_)) rfl
  · have el : lidx_main_v24 (ix2 i j) k = ix2 i k :=
      funext fun a => Fin.ext (by match a with | ⟨0, _⟩ => rfl | ⟨1, _⟩ => rfl)
    have er : ridx_main_v24 (ix2 i j) k = ix2 k j :=
      funext fun a => Fin.ext (by match a with | ⟨0, _⟩ => rfl | ⟨1, _⟩ => rfl)
    rw [el, er, mean_at, v23_at]
  · have el : lidx_main_v29 (ix2 i j) k = ix2 i k :=
      funext fun a => Fin.ext (by match a with | ⟨0, _⟩ => rfl | ⟨1, _⟩ => rfl)
    have er : ridx_main_v29 (ix2 i j) k = ix2 k j :=
      funext fun a => Fin.ext (by match a with | ⟨0, _⟩ => rfl | ⟨1, _⟩ => rfl)
    rw [el, er, v28_at]

/-! ## The column statistics -/

/-- A feature's mean laid along every row reads at (i, j) the mean of feature j (first copy). -/
private theorem v35_at (i : Fin 100000) (j : Fin 128) :
    val_main_v35 (F := Ideal) x0 x1 x2 x3 x4 (ix2 i j) = val_main_v33 (F := Ideal) x0 x1 x2 x3 x4 (ix1 j) := by
  rw [val_main_v35_apply, val_main_v34_apply]
  exact congrArg (val_main_v33 (F := Ideal) x0 x1 x2 x3 x4) (funext fun a => Fin.ext (by match a with | ⟨0, _⟩ => rfl))

/-- The same for the second copy. -/
private theorem v42_at (i : Fin 100000) (j : Fin 128) :
    val_main_v42 (F := Ideal) x0 x1 x2 x3 x4 (ix2 i j) = val_main_v33 (F := Ideal) x0 x1 x2 x3 x4 (ix1 j) := by
  rw [val_main_v42_apply, val_main_v41_apply]
  exact congrArg (val_main_v33 (F := Ideal) x0 x1 x2 x3 x4) (funext fun a => Fin.ext (by match a with | ⟨0, _⟩ => rfl))

/-- The column mean of feature j: the column sum of the pre-activation over the node count. -/
private theorem mu_at (j : Fin 128) :
    val_main_v33 (F := Ideal) x0 x1 x2 x3 x4 (ix1 j)
      = Cert.Spec.mu (msg x0 x1) (cnt x1) (mat x0) (mat x2) (mat x4) (vec x3) j := by
  rw [val_main_v33_apply, val_main_v31_apply, val_main_cst_4_apply, val_main_v32_apply, val_main_cst_5_apply, Ideal.hostDivf_def]
  simp only [Ideal.ofBits_def]
  rw [Ideal.ofBits_zero_f32, zero_add]
  unfold Cert.Spec.mu Cert.Spec.s1
  refine congrArg₂ Ideal.div (Finset.sum_congr rfl fun k _ => ?_) rfl
  have e : idx_main_v31 (ix1 j) k = ix2 k j :=
    funext fun a => Fin.ext (by match a with | ⟨0, _⟩ => rfl | ⟨1, _⟩ => rfl)
  rw [e, h_at]

/-- The mean of squared deviations of feature j. -/
private theorem var_at (j : Fin 128) :
    val_main_v40 (F := Ideal) x0 x1 x2 x3 x4 (ix1 j)
      = Ideal.div (Cert.Spec.dev2 (msg x0 x1) (cnt x1) (mat x0) (mat x2) (mat x4) (vec x3) j) Cert.Spec.nodesW := by
  rw [val_main_v40_apply, val_main_v38_apply, val_main_cst_6_apply, val_main_v39_apply, val_main_cst_7_apply, Ideal.hostDivf_def]
  simp only [Ideal.ofBits_def]
  rw [Ideal.ofBits_zero_f32, zero_add]
  unfold Cert.Spec.dev2
  refine congrArg₂ Ideal.div (Finset.sum_congr rfl fun k _ => ?_) rfl
  have e : idx_main_v38 (ix1 j) k = ix2 k j :=
    funext fun a => Fin.ext (by match a with | ⟨0, _⟩ => rfl | ⟨1, _⟩ => rfl)
  rw [e, val_main_v37_apply, val_main_v36_apply, v35_at, mu_at, h_at, Ideal.mulf_def, Ideal.subf_def]

/-! ## The normalised value and the rectifier -/

/-- The scale vector laid along every row reads at (i, j) its entry j. -/
private theorem v45_at (i : Fin 100000) (j : Fin 128) : val_main_v45 (F := Ideal) x5 (ix2 i j) = x5 (ix1 j) := by
  rw [val_main_v45_apply, val_main_v44_apply]
  exact congrArg x5 (funext fun a => Fin.ext (by match a with | ⟨0, _⟩ => rfl))

/-- The shift vector laid along every row reads at (i, j) its entry j. -/
private theorem v54_at (i : Fin 100000) (j : Fin 128) : val_main_v54 (F := Ideal) x6 (ix2 i j) = x6 (ix1 j) := by
  rw [val_main_v54_apply, val_main_v53_apply]
  exact congrArg x6 (funext fun a => Fin.ext (by match a with | ⟨0, _⟩ => rfl))

/-- The inverse standard deviation laid along every row reads at (i, j) that of feature j. -/
private theorem v51_at (i : Fin 100000) (j : Fin 128) :
    val_main_v51 (F := Ideal) x0 x1 x2 x3 x4 (ix2 i j) = val_main_v49 (F := Ideal) x0 x1 x2 x3 x4 (ix1 j) := by
  rw [val_main_v51_apply, val_main_v50_apply]
  exact congrArg (val_main_v49 (F := Ideal) x0 x1 x2 x3 x4) (funext fun a => Fin.ext (by match a with | ⟨0, _⟩ => rfl))

/-- The inverse standard deviation of feature j: the inverse square root of the guarded variance. -/
private theorem istd_at (j : Fin 128) :
    val_main_v49 (F := Ideal) x0 x1 x2 x3 x4 (ix1 j)
      = Ideal.rsqrt (Ideal.div (Cert.Spec.dev2 (msg x0 x1) (cnt x1) (mat x0) (mat x2) (mat x4) (vec x3) j) Cert.Spec.nodesW
          + Cert.Spec.epsW) := by
  rw [val_main_v49_apply, val_main_v48_apply, var_at, val_main_v47_apply, val_main_cst_8_apply, Ideal.hostUnary_rsqrt_def,
    Ideal.addf_def, Ideal.ofBits_def]

/-- The value before the rectifier at (i, j): the centred pre-activation, scaled, normalised and shifted. -/
private theorem pre_at (i : Fin 100000) (j : Fin 128) :
    val_main_v55 (F := Ideal) x0 x1 x2 x3 x4 x5 x6 (ix2 i j)
      = (vec x5 j * (Cert.Spec.h (msg x0 x1) (cnt x1) (mat x0) (mat x2) (mat x4) (vec x3) i j
            - Cert.Spec.mu (msg x0 x1) (cnt x1) (mat x0) (mat x2) (mat x4) (vec x3) j))
          * Ideal.rsqrt (Ideal.div (Cert.Spec.dev2 (msg x0 x1) (cnt x1) (mat x0) (mat x2) (mat x4) (vec x3) j) Cert.Spec.nodesW
              + Cert.Spec.epsW)
        + vec x6 j := by
  rw [val_main_v55_apply, val_main_v52_apply, val_main_v46_apply, v45_at, val_main_v43_apply, h_at, v42_at, mu_at, v51_at, istd_at,
    v54_at, Ideal.addf_def, Ideal.mulf_def, Ideal.mulf_def, Ideal.subf_def]

end Stages

/-- The reference's result at node i, feature j, is the second form of the layer's output. -/
theorem ref_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (i : Fin 100000) (j : Fin 128) :
    val_main_v60 (F := Ideal) x0 x1 x2 x3 x4 x5 x6 (ix2 i j)
      = Cert.Spec.outR (fun i k => val_main_v13 (F := Ideal) x0 x1 (ix2 i k)) (fun i => val_main_v17 (F := Ideal) x1 (ix1 i))
          (fun i k => x0 (ix2 i k)) (fun j k => x2 (ix2 j k)) (fun j k => x4 (ix2 j k)) (fun j => x3 (ix1 j))
          (fun j => x5 (ix1 j)) (fun j => x6 (ix1 j)) i j := by
  rw [val_main_v60_apply, val_main_v57_apply, val_main_v59_apply, val_main_v56_apply, val_main_cst_9_apply, val_main_v58_apply,
    val_main_cst_10_apply, pre_at, Ideal.cmpf_def, Ideal.mulf_def]
  rfl

end Cert.ReferenceIdeal.RefValue

end
-- ==== Proof.Region0Pieces.lean ====
/-
  What the first kernel's body leaves in its three output staging buffers, in each of its two control cases, as the
  payload terms of its skeleton.

  The body, at a grid point, optionally resets two row accumulators to the zero row (taken at the first point only:
  case A; not taken: case B), then computes from six whole input blocks a block `h` of shape 2000 x 128
  (`k0_pay4`: a row-normalised block and a second block, each rounded to bf16 and multiplied by a 128 x 128 matrix,
  the two products added, plus a broadcast bias row), stores `h` whole into the first output, and updates the two
  accumulators: the first by the column sums of `h` (`k0_pay5`), the second by the column sums of `h * h`
  (`k0_pay1`).

  Every store and every load goes through the whole-shape rectangle at zero offsets, so reading the written pieces
  back is reading the LAST store's payload (a list of one piece, or a later covering piece over an earlier one), a load
  of an input block reads that block, and a load of an accumulator after its reset reads the zero row that was stored.
  In case B the accumulators' loads read the contents carried from the point before.

  The six statements are generic in the float interpretation `F`.
-/
import proofs.«165079_j24068996727347_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-2 rectangle, however spelt, are the constant zero function. -/
theorem hz : (![0, 0] : Fin 2 → Nat) = fun _ => 0 := funext fun a => by fin_cases a <;> rfl

/-! ## Case A: the reset is taken (the first grid point) -/

/-- The first output after case A: the one whole store of the block `h`, computed from the six input blocks as loaded. -/
theorem out_A_6 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S2000x128 .f32) (x1 : Vec F S2000x1 .f32) (x2 : Vec F S2000x128 .f32) (x3 : Vec F S128x128 .f32) (x4 : Vec F S1x128 .f32) (x5 : Vec F S128x128 .f32) :
    out0_A_6 c i arg1 harg1 arg2 harg2 arg3 harg3 arg4 harg4 arg5 harg5 arg6 harg6 arg7 harg7 arg8 harg8 arg9 harg9 hc0 x0 x1 x2 x3 x4 x5 = k0_pay4 x1 x0 x2 x3 x5 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S2000x128) hz, View.ld_unit_zero (S := S2000x1) hz, View.ld_unit_zero (S := S128x128) hz, View.ld_unit_zero (S := S1x128) hz]

/-- The first accumulator after case A: the zero row is stored, read back, and the column sums of `h` are added to it; the later store covers the earlier one. -/
theorem out_A_7 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S2000x128 .f32) (x1 : Vec F S2000x1 .f32) (x2 : Vec F S2000x128 .f32) (x3 : Vec F S128x128 .f32) (x4 : Vec F S1x128 .f32) (x5 : Vec F S128x128 .f32) :
    out0_A_7 c i arg1 harg1 arg2 harg2 arg3 harg3 arg4 harg4 arg5 harg5 arg6 harg6 arg7 harg7 arg8 harg8 arg9 harg9 hc0 x0 x1 x2 x3 x4 x5 = k0_pay5 x1 x0 x2 x3 x5 x4 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S2000x128) hz, View.ld_unit_zero (S := S2000x1) hz, View.ld_unit_zero (S := S128x128) hz, View.ld_unit_zero (S := S1x128) hz]

/-- The second accumulator after case A: the zero row is stored, read back, and the column sums of `h * h` are added to it; the later store covers the earlier one. -/
theorem out_A_8 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S2000x128 .f32) (x1 : Vec F S2000x1 .f32) (x2 : Vec F S2000x128 .f32) (x3 : Vec F S128x128 .f32) (x4 : Vec F S1x128 .f32) (x5 : Vec F S128x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x1 x0 x2 x3 x5 x4) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S2000x128) hz, View.ld_unit_zero (S := S2000x1) hz, View.ld_unit_zero (S := S128x128) hz, View.ld_unit_zero (S := S1x128) hz]

/-! ## Case B: the reset is not taken (every later grid point) -/

/-- The first output after case B: the same whole store of the block `h`; the carried accumulators do not enter it. -/
theorem out_B_6 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S2000x128 .f32) (x1 : Vec F S2000x1 .f32) (x2 : Vec F S2000x128 .f32) (x3 : Vec F S128x128 .f32) (x4 : Vec F S1x128 .f32) (x5 : Vec F S128x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x1 x0 x2 x3 x5 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x128) hz, View.ld_unit_zero (S := S1x128) hz]

/-- The first accumulator after case B: its carried contents `xo7` plus the column sums of `h`, the one covering store. -/
theorem out_B_7 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S2000x128 .f32) (x1 : Vec F S2000x1 .f32) (x2 : Vec F S2000x128 .f32) (x3 : Vec F S128x128 .f32) (x4 : Vec F S1x128 .f32) (x5 : Vec F S128x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x1 x0 x2 x3 x5 x4 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x128) hz, View.ld_unit_zero (S := S1x128) hz]

/-- The second accumulator after case B: its carried contents `xo8` plus the column sums of `h * h`, the one covering store. -/
theorem out_B_8 (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S2000x128 .f32) (x1 : Vec F S2000x1 .f32) (x2 : Vec F S2000x128 .f32) (x3 : Vec F S128x128 .f32) (x4 : Vec F S1x128 .f32) (x5 : Vec F S128x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x1 x0 x2 x3 x5 x4) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x128) hz, View.ld_unit_zero (S := S1x128) hz]

end Cert.KernelIdeal.Pieces

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.Payloads.lean ====
/- The arithmetic of the two kernels' bodies, read one entry at a time over the extended reals.

   The first kernel works on a block of 2000 nodes with 128 features. Entry (r, j) of its block result is the row's
   neighbour mean (the summed messages over the neighbour count raised to at least 1) through one 128 x 128 weight
   matrix, plus the row's own features through a second one, plus the bias of column j. Beside that it keeps two
   running rows: the column sums of the block result and the column sums of its squares, each started from a row of
   zeros. The second kernel maps entry (r, j) affinely with a per-column scale and shift and applies the leaky
   rectifier.

   Every step of those bodies is either pointwise (it reads its operands at the same entry), a layout step (a row or a
   column laid over the block, a vector viewed as one row), a sum down the columns, or a matrix product accumulated
   into zero. The first three lemmas read the two non-pointwise steps at an entry; the six theorems after them state
   each stored value at an entry. On the extended reals the change of float format before a product is the identity,
   so the products are the plain sums of products. -/
import proofs.«165079_j24068996727347_1_alg».proof.Proof.Gen.KernelIdeal.Skeleton
import proofs.«165079_j24068996727347_1_alg».proof.Proof.Spec
import proofs.«165079_j24068996727347_1_alg».proof.Proof.LibDotRead
import proofs.«165079_j24068996727347_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A sum down the columns, and a matrix product into zero, read at an entry -/

/-- A float sum down the columns of an `[a, b]` array, read at column `q`, is the sum over the row coordinate of
    the column's entries. -/
theorem colSum_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => congrArg src (funext fun d => Fin.ext ?_)
  match d with
  | ⟨0, _⟩ => rfl
  | ⟨1, _⟩ => rfl

/-- The column sums laid out as one row: entry `(0, q)` of the `[1, b]` row is the sum down column `q`. -/
theorem colSumRow_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (q : Fin b) :
    shapeCast ⟨2, ![1, b]⟩ (multiReduction .add [0] ⟨1, ![b]⟩ src acc h hφ hacc) hc (ix2 (0 : Fin 1) q) = ∑ p : Fin a, src (ix2 p q) :=
  (shapeCast_a_1a_apply _ hc (0 : Fin 1) q).trans (colSum_apply src acc h hφ hacc q)

/-- The product of a `[2000, 128]` by a `[128, 128]` matrix accumulated into zero, read at `(r, j)`: the sum over the
    contracted coordinate `k` of the left matrix at `(r, k)` times the right one at `(k, j)`. -/
theorem matmul_zero_apply (A : FVec Ideal S2000x128 .bf16) (B : FVec Ideal S128x128 .bf16) (r : Fin 2000) (j : Fin 128) :
    matmul dot_S2000x128_S128x128_S2000x128_1_0_0_1_n_n none A B (constant (F := Ideal) S2000x128 .f32 0x00000000#32) (ix2 r j)
      = ∑ k : Fin 128, A (ix2 r k) * B (ix2 k j) :=
  (Ideal.matmul_constant_zero_apply dot_S2000x128_S128x128_S2000x128_1_0_0_1_n_n none A B (ix2 r j)).trans
    (Cert.DotRead.sum_contr_plain dot_S2000x128_S128x128_S2000x128_1_0_0_1_n_n_wf A B r j)

/-! ## The first kernel's stored values -/

/-- The block result at `(r, j)`: the neighbour mean of row `r` through the first weight matrix, the row's own features
    through the second, and the bias of column `j`. The count column is laid over the 128 features before the division,
    the bias row over the 2000 rows before the last sum. -/
theorem pay4_apply (v3 : Vec Ideal S2000x1 .f32) (v7 v12 : Vec Ideal S2000x128 .f32) (v14 v17 : Vec Ideal S128x128 .f32) (v23 : Vec Ideal S1x128 .f32) (r : Fin 2000) (j : Fin 128) :
    k0_pay4 (F := Ideal) v3 v7 v12 v14 v17 v23 (ix2 r j)
      = ((∑ k : Fin 128, Ideal.div (v7 (ix2 r k)) (max (v3 (ix2 r (0 : Fin 1))) Cert.Spec.oneW) * v14 (ix2 k j)) + ∑ k : Fin 128, v12 (ix2 r k) * v17 (ix2 k j)) + v23 (ix2 (0 : Fin 1) j) := by
  unfold k0_pay4
  simp only [shapeCast_self]
  refine (addf_apply _ _ _).trans (congrArg₂ (· + ·) ((addf_apply _ _ _).trans (congrArg₂ (· + ·) ?_ ?_)) ?_)
  · refine (matmul_zero_apply _ _ r j).trans (Finset.sum_congr rfl fun k _ => ?_)
    refine congrArg (· * v14 (ix2 k j)) ?_
    refine (divf_apply _ _ _).trans (congrArg (Ideal.div (v7 (ix2 r k))) ?_)
    exact Cert.Keepdims.broadcastTo_a1_ab_apply _ broadcasts_S2000x1_S2000x128 r k
  · exact matmul_zero_apply _ _ r j
  · exact broadcastTo_1b_ab_apply v23 broadcasts_S1x128_S2000x128 r j

/-- The running row of column sums at `(0, j)`: its earlier value plus the sum down column `j` of the block result. -/
theorem pay5_apply (v3 : Vec Ideal S2000x1 .f32) (v7 v12 : Vec Ideal S2000x128 .f32) (v14 v17 : Vec Ideal S128x128 .f32) (v23 v28 : Vec Ideal S1x128 .f32) (j : Fin 128) :
    k0_pay5 (F := Ideal) v3 v7 v12 v14 v17 v23 v28 (ix2 (0 : Fin 1) j) = v28 (ix2 (0 : Fin 1) j) + ∑ r : Fin 2000, k0_pay4 (F := Ideal) v3 v7 v12 v14 v17 v23 (ix2 r j) := by
  unfold k0_pay5
  simp only [shapeCast_self]
  refine (addf_apply _ _ _).trans (congrArg (v28 (ix2 (0 : Fin 1) j) + ·) ?_)
  exact colSumRow_apply (k0_pay4 (F := Ideal) v3 v7 v12 v14 v17 v23) 0x00000000#32 reduces_S2000x128_S128 (.inl rfl) rfl shapeCasts_S128_S1x128 j

/-- The running row of column sums of squares at `(0, j)`: its earlier value plus the sum down column `j` of the
    squared entries. -/
theorem pay1_apply (v26 : FVec Ideal S2000x128 .f32) (v34 : Vec Ideal S1x128 .f32) (j : Fin 128) :
    k0_pay1 (F := Ideal) v26 v34 (ix2 (0 : Fin 1) j) = v34 (ix2 (0 : Fin 1) j) + ∑ r : Fin 2000, v26 (ix2 r j) * v26 (ix2 r j) := by
  unfold k0_pay1
  simp only [shapeCast_self]
  refine (addf_apply _ _ _).trans (congrArg (v34 (ix2 (0 : Fin 1) j) + ·) ?_)
  exact colSumRow_apply (mulf v26 v26) 0x00000000#32 reduces_S2000x128_S128 (.inl rfl) rfl shapeCasts_S128_S1x128 j

/-- The two running rows start from zero: the float word of all zero bits is the extended real 0. -/
theorem pay2_apply (j : Fin 128) : k0_pay2 (F := Ideal) (ix2 (0 : Fin 1) j) = 0 := by
  unfold k0_pay2
  exact Ideal.ofBits_zero_f32

theorem pay3_apply (j : Fin 128) : k0_pay3 (F := Ideal) (ix2 (0 : Fin 1) j) = 0 := by
  unfold k0_pay3
  exact Ideal.ofBits_zero_f32

/-! ## The second kernel's stored value -/

/-- The output at `(r, j)`: the leaky rectifier of the entry times the scale of column `j` plus the shift of column
    `j`; the scale and shift rows are laid over the 2000 rows, and the rectifier is the select between the affine value
    and the slope times it, on the comparison of the affine value with zero. -/
theorem k1pay_apply (v0 : Vec Ideal S2000x128 .f32) (v2 v6 : Vec Ideal S1x128 .f32) (r : Fin 2000) (j : Fin 128) :
    k1_pay1 (F := Ideal) v0 v2 v6 (ix2 r j) = Cert.Spec.leaky (v0 (ix2 r j) * v2 (ix2 (0 : Fin 1) j) + v6 (ix2 (0 : Fin 1) j)) := by
  unfold k1_pay1
  simp only [shapeCast_self]
  have e2 : broadcastTo S2000x128 v2 broadcasts_S1x128_S2000x128 (ix2 r j) = v2 (ix2 (0 : Fin 1) j) :=
    broadcastTo_1b_ab_apply v2 broadcasts_S1x128_S2000x128 r j
  have e6 : broadcastTo S2000x128 v6 broadcasts_S1x128_S2000x128 (ix2 r j) = v6 (ix2 (0 : Fin 1) j) :=
    broadcastTo_1b_ab_apply v6 broadcasts_S1x128_S2000x128 r j
  show Scalar.select (Ideal.cmp .oge (v0 (ix2 r j) * broadcastTo S2000x128 v2 broadcasts_S1x128_S2000x128 (ix2 r j)
        + broadcastTo S2000x128 v6 broadcasts_S1x128_S2000x128 (ix2 r j)) Cert.Spec.zeroW)
      (v0 (ix2 r j) * broadcastTo S2000x128 v2 broadcasts_S1x128_S2000x128 (ix2 r j)
        + broadcastTo S2000x128 v6 broadcasts_S1x128_S2000x128 (ix2 r j))
      (Cert.Spec.slopeW * (v0 (ix2 r j) * broadcastTo S2000x128 v2 broadcasts_S1x128_S2000x128 (ix2 r j)
        + broadcastTo S2000x128 v6 broadcasts_S1x128_S2000x128 (ix2 r j))) = _
  rw [e2, e6]
  rfl

end Cert.KernelIdeal.Pay

end
-- ==== Proof.Region0Acc.lean ====
/-
  What the first kernel's three output staging buffers hold after each grid point, in closed form.

  The first kernel runs over fifty grid points. At every point it computes a block of 2000 rows of the pre-activation
  from its six input blocks and stores it whole into the first output; it also carries two rows across the points:
  the column sums of the block, and the column sums of the block's squares. Both rows are reset to the zero row at the
  first point (the only point whose index is a multiple of fifty) and are updated from what the point before left at
  every later point.

  So after point n the first output holds the block computed at n, and entry j of each carried row is a double sum:
  over the points 0, ..., n and over the 2000 rows of each point's block, of column j of the block (of its square, for
  the second row). The first fact needs no induction: both control cases store the same block. The other two are an
  induction on the point: the zero row contributes nothing at the first point, and each later point adds one more term
  to the outer sum. The sums stay symbolic; the range of the outer sum is cut at the number of points by a guard that is
  always met inside the range.
-/
import proofs.«165079_j24068996727347_1_alg».proof.Proof.KernelNames
import proofs.«165079_j24068996727347_1_alg».proof.Proof.Region0Pieces
import proofs.«165079_j24068996727347_1_alg».proof.Proof.Payloads
import Idealize.ShloMosaic.Lib.Pipeline.Value
import Mathlib.Algebra.BigOperators.Intervals

set_option maxRecDepth 16384

noncomputable section

namespace Cert.KernelIdeal.Acc

open Cert.KernelIdeal Cert.KernelIdeal.Gen Cert.KernelIdeal.Names
open Idealize.ShloMosaic Idealize.ShloMosaic.TcCoe Idealize.ShloMosaic.ValueIdx Idealize.SL.Sem
open Idealize.ShloMosaic.Pipeline (Dat)

section Regions
variable (V : (c : Dev nD) → (b : Ref sig .tc) → Buf (Elt Ideal) ((c : Thread nD τ).loc b))

/-- The grid has fifty points, so a point after the first is never a multiple of fifty. -/
theorem succ_mod_ne (n : ℕ) (hn : n + 1 < cfg0.N) : ¬(n + 1) % 50 = 0 := by
  have hN : cfg0.N = 50 := N_0
  omega

/-- The first output after point n is the block of the pre-activation computed at that point, whichever case the point is. -/
theorem outs6 (c : Dev nD) (n : ℕ) (hn : n < cfg0.N) : (outsAt0 V c n hn).1 = hblk V c ⟨n, hn⟩ := by
  by_cases h0 : n % 50 = 0
  · rw [outsAt0_A V c ⟨n, hn⟩ h0]
    dsimp only
    exact Pieces.out_A_6 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) ((hcond0_0 ⟨n, hn⟩).mpr h0) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)
  · rw [outsAt0_B V c ⟨n, hn⟩ h0]
    dsimp only
    exact Pieces.out_B_6 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (fun h => h0 ((hcond0_0 ⟨n, hn⟩).mp h)) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (outsAt0 V c (n - 1) (Nat.lt_of_le_of_lt (Nat.sub_le _ _) hn)).2.1 (outsAt0 V c (n - 1) (Nat.lt_of_le_of_lt (Nat.sub_le _ _) hn)).2.2

/-- The first accumulator row after the first point: the zero row plus the column sums of the first block. -/
theorem row7_zero (c : Dev nD) (hn : 0 < cfg0.N) :
    (outsAt0 V c 0 hn).2.1 = k0_pay5 (F := Ideal) (b1 V c ⟨0, hn⟩) (b0 V c ⟨0, hn⟩) (b2 V c ⟨0, hn⟩) (b3 V c ⟨0, hn⟩) (b5 V c ⟨0, hn⟩) (b4 V c ⟨0, hn⟩) (k0_pay2 (F := Ideal)) := by
  rw [outsAt0_A V c ⟨0, hn⟩ (Nat.zero_mod 50)]
  dsimp only
  exact Pieces.out_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod 50)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)

/-- The second accumulator row after the first point: the zero row plus the column sums of the first block's squares. -/
theorem row8_zero (c : Dev nD) (hn : 0 < cfg0.N) :
    (outsAt0 V c 0 hn).2.2 = k0_pay1 (F := Ideal) (hblk V c ⟨0, hn⟩) (k0_pay3 (F := Ideal)) := by
  rw [outsAt0_A V c ⟨0, hn⟩ (Nat.zero_mod 50)]
  dsimp only
  exact Pieces.out_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod 50)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)

/-- The first accumulator row after a later point: the row the point before left plus the column sums of this point's block. -/
theorem row7_succ (c : Dev nD) (n : ℕ) (hn : n + 1 < cfg0.N) :
    (outsAt0 V c (n + 1) hn).2.1
      = k0_pay5 (F := Ideal) (b1 V c ⟨n + 1, hn⟩) (b0 V c ⟨n + 1, hn⟩) (b2 V c ⟨n + 1, hn⟩) (b3 V c ⟨n + 1, hn⟩) (b5 V c ⟨n + 1, hn⟩) (b4 V c ⟨n + 1, hn⟩) (outsAt0 V c n (Nat.lt_of_succ_lt hn)).2.1 := by
  rw [outsAt0_B V c ⟨n + 1, hn⟩ (succ_mod_ne n hn)]
  dsimp only
  exact Pieces.out_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => succ_mod_ne n hn ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2

/-- The second accumulator row after a later point: the row the point before left plus the column sums of this point's squares. -/
theorem row8_succ (c : Dev nD) (n : ℕ) (hn : n + 1 < cfg0.N) :
    (outsAt0 V c (n + 1) hn).2.2
      = k0_pay1 (F := Ideal) (hblk V c ⟨n + 1, hn⟩) (outsAt0 V c n (Nat.lt_of_succ_lt hn)).2.2 := by
  rw [outsAt0_B V c ⟨n + 1, hn⟩ (succ_mod_ne n hn)]
  dsimp only
  exact Pieces.out_B_8 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => succ_mod_ne n hn ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2

/-- Entry j of the first accumulator row after point n: the sum, over the points up to n and the 2000 rows of each block, of column j. -/
theorem outs7 (c : Dev nD) (n : ℕ) (hn : n < cfg0.N) (j : Fin 128) :
    (outsAt0 V c n hn).2.1 (ix2 (0 : Fin 1) j)
      = ∑ t ∈ Finset.range (n + 1), ∑ r : Fin 2000, (if ht : t < cfg0.N then hblk V c ⟨t, ht⟩ (ix2 r j) else 0) := by
  induction n with
  | zero =>
    rw [row7_zero V c hn, Pay.pay5_apply, Pay.pay2_apply, zero_add, Finset.sum_range_one]
    exact Finset.sum_congr rfl fun r _ => by rw [dif_pos hn]
  | succ n ih =>
    rw [row7_succ V c n hn, Pay.pay5_apply, ih (Nat.lt_of_succ_lt hn), Finset.sum_range_succ _ (n + 1)]
    exact congrArg _ (Finset.sum_congr rfl fun r _ => by rw [dif_pos hn])

/-- Entry j of the second accumulator row after point n: the same sum of the squares. -/
theorem outs8 (c : Dev nD) (n : ℕ) (hn : n < cfg0.N) (j : Fin 128) :
    (outsAt0 V c n hn).2.2 (ix2 (0 : Fin 1) j)
      = ∑ t ∈ Finset.range (n + 1), ∑ r : Fin 2000, (if ht : t < cfg0.N then hblk V c ⟨t, ht⟩ (ix2 r j) * hblk V c ⟨t, ht⟩ (ix2 r j) else 0) := by
  induction n with
  | zero =>
    rw [row8_zero V c hn, Pay.pay1_apply, Pay.pay3_apply, zero_add, Finset.sum_range_one]
    exact Finset.sum_congr rfl fun r _ => by rw [dif_pos hn]
  | succ n ih =>
    rw [row8_succ V c n hn, Pay.pay1_apply, ih (Nat.lt_of_succ_lt hn), Finset.sum_range_succ _ (n + 1)]
    exact congrArg _ (Finset.sum_congr rfl fun r _ => by rw [dif_pos hn])

end Regions

end Cert.KernelIdeal.Acc

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.Region0Final.lean ====
/- The three arrays the first kernel leaves once its grid of fifty points has run.

   The kernel walks the 100000 nodes in fifty blocks of 2000 rows. At point t it computes rows 2000 t .. 2000 t + 1999 of
   the pre-activation (the neighbour mean through one weight matrix, the node's own features through the other, plus the
   bias) and writes that block back; the fifty blocks tile the array, so the first output ends holding the whole
   pre-activation. Alongside it keeps two running rows, the column sums of the blocks seen so far and the column sums of
   their squares; these are written back once, after the last point, when they are the sums over all fifty blocks. A sum
   taken block by block over fifty blocks of 2000 rows is the sum over the 100000 rows, so the two rows end holding the
   column sums of the pre-activation and of its square.

   The steps: where each window's block sits in its array at a point; each input block read at plain coordinates; the
   computed block as rows of the pre-activation; then, per output, what a writing point writes back as a block of one
   whole-array function, and that the writing points' blocks cover the array. -/
import proofs.«165079_j24068996727347_1_alg».proof.Proof.KernelNames
import proofs.«165079_j24068996727347_1_alg».proof.Proof.Region0Acc
import proofs.«165079_j24068996727347_1_alg».proof.Proof.Payloads
import proofs.«165079_j24068996727347_1_alg».proof.Proof.LibBlockedSum
import Idealize.ShloMosaic.Lib.Pipeline.Value

set_option maxRecDepth 16384

noncomputable section

open scoped BigOperators

namespace Cert.KernelIdeal.R0

open Cert.KernelIdeal Cert.KernelIdeal.Gen Cert.KernelIdeal.Names
open Idealize.ShloMosaic Idealize.ShloMosaic.TcCoe Idealize.ShloMosaic.ValueIdx Idealize.SL.Sem
open Idealize.ShloMosaic.Pipeline (Dat)

section Region
variable (V : (c : Dev nD) → (b : Ref sig .tc) → Buf (Elt Ideal) ((c : Thread nD τ).loc b))

/-- The grid has fifty points. -/
theorem N50 : cfg0.N = 50 := N_0

/-- Where each window's block sits at a grid point, decided once over the fifty points: the three row-blocked
    inputs and the row-blocked output are at block row t, column block 0; the other windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row r of the block at grid point t is row 2000 t + r of the whole array. -/
def row (t : Fin cfg0.N) (r : Fin 2000) : Fin 100000 :=
  ⟨2000 * t.val + r.val, by have h : t.val < 50 := lt_of_lt_of_eq t.isLt N50; have := r.isLt; omega⟩

theorem row_val (t : Fin cfg0.N) (r : Fin 2000) : (row t r).val = 2000 * t.val + r.val := rfl

/-! ## The input blocks, read at plain coordinates -/

/-- The block of summed messages at point t is rows 2000 t .. 2000 t + 1999 of the array. -/
theorem b0_apply (c : Dev nD) (t : Fin cfg0.N) (r : Fin 2000) (k : Fin 128) :
    (b0 V c t (ix2 r k) : EReal) = V c main_v13 (ix2 (row t r) k) := by
  show V c main_v13 (((cfg0.win 0).blk t).view.emb (ix2 r k)) = V c main_v13 (ix2 (row t r) k)
  refine congrArg _ ?_
  funext a; apply Fin.ext
  obtain ⟨e0, e1, -⟩ := idx_facts t
  match a with
  | ⟨0, _⟩ => show win0_0.index t (0 : Fin 2) * 2000 + 1 * r.val = 2000 * t.val + r.val; omega
  | ⟨1, _⟩ => show win0_0.index t (1 : Fin 2) * 128 + 1 * k.val = k.val; omega

/-- The block of neighbour counts at point t is the same rows of the count column. -/
theorem b1_apply (c : Dev nD) (t : Fin cfg0.N) (r : Fin 2000) :
    (b1 V c t (ix2 r (0 : Fin 1)) : EReal) = V c main_v18 (ix2 (row t r) (0 : Fin 1)) := by
  show V c main_v18 (((cfg0.win 1).blk t).view.emb (ix2 r (0 : Fin 1))) = V c main_v18 (ix2 (row t r) (0 : Fin 1))
  refine congrArg _ ?_
  funext a; apply Fin.ext
  obtain ⟨-, -, e0, e1, -⟩ := idx_facts t
  match a with
  | ⟨0, _⟩ => show win0_1.index t (0 : Fin 2) * 2000 + 1 * r.val = 2000 * t.val + r.val; omega
  | ⟨1, _⟩ => show win0_1.index t (1 : Fin 2) * 1 + 1 * (0 : Fin 1).val = (0 : Fin 1).val; omega

/-- The block of node features at point t is the same rows of the feature array. -/
theorem b2_apply (c : Dev nD) (t : Fin cfg0.N) (r : Fin 2000) (k : Fin 128) :
    (b2 V c t (ix2 r k) : EReal) = V c main_arg0 (ix2 (row t r) k) := by
  show V c main_arg0 (((cfg0.win 2).blk t).view.emb (ix2 r k)) = V c main_arg0 (ix2 (row t r) k)
  refine congrArg _ ?_
  funext a; apply Fin.ext
  obtain ⟨-, -, -, -, e0, e1, -⟩ := idx_facts t
  match a with
  | ⟨0, _⟩ => show win0_2.index t (0 : Fin 2) * 2000 + 1 * r.val = 2000 * t.val + r.val; omega
  | ⟨1, _⟩ => show win0_2.index t (1 : Fin 2) * 128 + 1 * k.val = k.val; omega

/-- The first weight window's block is the whole (transposed) matrix at every point. -/
theorem b3_apply (c : Dev nD) (t : Fin cfg0.N) (k j : Fin 128) :
    (b3 V c t (ix2 k j) : EReal) = V c main_v19 (ix2 k j) := by
  show V c main_v19 (((cfg0.win 3).blk t).view.emb (ix2 k j)) = V c main_v19 (ix2 k j)
  refine congrArg _ ?_
  funext a; apply Fin.ext
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * j.val = j.val; omega

/-- The bias window's block is the whole bias row at every point. -/
theorem b4_apply (c : Dev nD) (t : Fin cfg0.N) (j : Fin 128) :
    (b4 V c t (ix2 (0 : Fin 1) j) : EReal) = V c main_v21 (ix2 (0 : Fin 1) j) := by
  show V c main_v21 (((cfg0.win 4).blk t).view.emb (ix2 (0 : Fin 1) j)) = V c main_v21 (ix2 (0 : Fin 1) j)
  refine congrArg _ ?_
  funext a; apply Fin.ext
  obtain ⟨-, -, -, -, -, -, -, -, e0, e1, -⟩ := idx_facts t
  match a with
  | ⟨0, _⟩ => show win0_4.index t (0 : Fin 2) * 1 + 1 * (0 : Fin 1).val = (0 : Fin 1).val; omega
  | ⟨1, _⟩ => show win0_4.index t (1 : Fin 2) * 128 + 1 * j.val = j.val; omega

/-- The second weight window's block is the whole (transposed) matrix at every point. -/
theorem b5_apply (c : Dev nD) (t : Fin cfg0.N) (k j : Fin 128) :
    (b5 V c t (ix2 k j) : EReal) = V c main_v20 (ix2 k j) := by
  show V c main_v20 (((cfg0.win 5).blk t).view.emb (ix2 k j)) = V c main_v20 (ix2 k j)
  refine congrArg _ ?_
  funext a; apply Fin.ext
  obtain ⟨-, -, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * j.val = j.val; omega

/-! ## The block of the pre-activation computed at a point -/

/-- Row r, column j of the block computed at point t is the pre-activation of node 2000 t + r at feature j: the
    neighbour mean through the first weights, the node's own features through the second, plus the bias, each read
    where the blocks sit in their arrays. -/
theorem hblk_apply (c : Dev nD) (t : Fin cfg0.N) (r : Fin 2000) (j : Fin 128) :
    (hblk V c t (ix2 r j) : EReal)
      = Cert.Spec.h (msgV V c) (cntV V c) (xV V c) (wlV V c) (wrV V c) (blV V c) (row t r) j := by
  refine (Pay.pay4_apply (b1 V c t) (b0 V c t) (b2 V c t) (b3 V c t) (b5 V c t) (b4 V c t) r j).trans ?_
  unfold Cert.Spec.h Cert.Spec.mean
  refine congrArg₂ (· + ·) (congrArg₂ (· + ·) ?_ ?_) ?_
  · refine Finset.sum_congr rfl fun k _ => ?_
    rw [b0_apply V c t r k, b1_apply V c t r, b3_apply V c t k j]
  · refine Finset.sum_congr rfl fun k _ => ?_
    rw [b2_apply V c t r k, b5_apply V c t k j]
  · exact b4_apply V c t j

/-! ## The whole pre-activation: the first output -/

/-- The pre-activation as the contents of the first output's array. -/
def G6 (c : Dev nD) : S100000x128.Idx → EReal := fun idx =>
  Cert.Spec.h (msgV V c) (cntV V c) (xV V c) (wlV V c) (wrV V c) (blV V c) ⟨(idx 0).val, idx2_lt0 idx⟩ ⟨(idx 1).val, idx2_lt1 idx⟩

/-- What point t writes back to the first output is rows 2000 t .. 2000 t + 1999 of the pre-activation. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6, Acc.outs6]
  funext y
  have hy0 : (y 0).val < 2000 := (y 0).isLt
  have hy1 : (y 1).val < 128 := (y 1).isLt
  have e : (cfg0.win 6).xinj (grid0.coords t) y = ix2 (⟨(y 0).val, hy0⟩ : Fin 2000) (⟨(y 1).val, hy1⟩ : Fin 128) := by
    funext a
    match a with
    | ⟨0, _⟩ => rfl
    | ⟨1, _⟩ => rfl
  show (hblk V c t ((cfg0.win 6).xinj (grid0.coords t) y) : EReal) = G6 V c (((cfg0.win 6).blk t).view.emb y)
  rw [e, hblk_apply]
  obtain ⟨-, -, -, -, -, -, -, -, -, -, -, -, e0, e1, -⟩ := idx_facts t
  unfold G6
  refine congrArg₂ (Cert.Spec.h (msgV V c) (cntV V c) (xV V c) (wlV V c) (wrV V c) (blV V c)) (Fin.ext ?_) (Fin.ext ?_)
  · show 2000 * t.val + (y 0).val = win0_6.index t (0 : Fin 2) * 2000 + 1 * (y 0).val; omega
  · show (y 1).val = win0_6.index t (1 : Fin 2) * 128 + 1 * (y 1).val; omega

/-- An index of the first output's array is in point t's block iff each coordinate is in the block's range. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_0).slice (win0_6.rect t)).set ↔ _
  rw [View.set_slice_whole, Rect.mem_set_unit]
  exact Iff.rfl

/-- Row i of the array lies in the block of point i / 2000, which writes back: the fifty blocks tile the array. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 2000 < cfg0.N := lt_of_lt_of_eq (by omega : (i 0).val / 2000 < 50) N50.symm
  refine ⟨⟨(i 0).val / 2000, ht⟩, flush0_6 _, ?_⟩
  rw [mem_blk6]
  obtain ⟨-, -, -, -, -, -, -, -, -, -, -, -, e0, e1, -⟩ := idx_facts ⟨(i 0).val / 2000, ht⟩
  have e0' : win0_6.index ⟨(i 0).val / 2000, ht⟩ (0 : Fin 2) = (i 0).val / 2000 := e0
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    omega

/-- After the grid has run, the first output holds the pre-activation. -/
theorem final6 (c : Dev nD) (i : Fin 100000) (j : Fin 128) :
    (dat0 V c).arrAt 6 cfg0.N (ix2 i j) = Cert.Spec.h (msgV V c) (cntV V c) (xV V c) (wlV V c) (wrV V c) (blV V c) i j :=
  (congrFun ((dat0 V c).arrAt_eq_of_cover 6 (G6 V c) (fun t _ => flushed6_eq V c t) cover6) (ix2 i j)).trans rfl

/-! ## The column sums: the second and third outputs -/

/-- The last grid point, the only one that writes the two accumulated rows back. -/
def tLast : Fin cfg0.N := ⟨49, lt_of_lt_of_eq (by decide : 49 < 50) N50.symm⟩

/-- Summing a function of the pre-activation block by block, over the fifty blocks of 2000 rows, is summing it over
    all 100000 rows: block t's row r is row 2000 t + r. -/
theorem sum_blocks (c : Dev nD) (j : Fin 128) (φ : EReal → EReal) :
    ∑ t ∈ Finset.range 50, ∑ r : Fin 2000, (if ht : t < cfg0.N then φ (hblk V c ⟨t, ht⟩ (ix2 r j)) else 0)
      = ∑ i : Fin 100000, φ (Cert.Spec.h (msgV V c) (cntV V c) (xV V c) (wlV V c) (wrV V c) (blV V c) i j) := by
  have key := Cert.BlockedSum.sum_blocks_fin
    (fun k => if hk : k < 100000 then φ (Cert.Spec.h (msgV V c) (cntV V c) (xV V c) (wlV V c) (wrV V c) (blV V c) ⟨k, hk⟩ j) else 0) 50 2000
  refine Eq.trans (Finset.sum_congr rfl fun t ht => Finset.sum_congr rfl fun r _ => ?_) (key.trans ?_)
  · have ht' : t < 50 := Finset.mem_range.mp ht
    have hN : t < cfg0.N := lt_of_lt_of_eq ht' N50.symm
    have hr : r.val < 2000 := r.isLt
    rw [dif_pos hN, dif_pos (show 2000 * t + r.val < 100000 by omega), hblk_apply]
    rfl
  · show ∑ k : Fin 100000, (if hk : k.val < 100000 then φ (Cert.Spec.h (msgV V c) (cntV V c) (xV V c) (wlV V c) (wrV V c) (blV V c) ⟨k.val, hk⟩ j) else 0) = _
    exact Finset.sum_congr rfl fun k _ => by rw [dif_pos k.isLt]

/-- The column sums of the pre-activation as the contents of the second output's one row, -/
def G7 (c : Dev nD) : S1x128.Idx → EReal := fun idx =>
  Cert.Spec.s1 (msgV V c) (cntV V c) (xV V c) (wlV V c) (wrV V c) (blV V c) ⟨(idx 1).val, idx2_lt1 idx⟩

/-- and the column sums of its square as the contents of the third's. -/
def G8 (c : Dev nD) : S1x128.Idx → EReal := fun idx =>
  Cert.Spec.s2 (msgV V c) (cntV V c) (xV V c) (wlV V c) (wrV V c) (blV V c) ⟨(idx 1).val, idx2_lt1 idx⟩

/-- A point that writes the second or third output back is the last one. -/
theorem val_of_mod (t : Fin cfg0.N) (h : t.val % 50 = 49) : t.val = 49 := by
  have hN : t.val < 50 := lt_of_lt_of_eq t.isLt N50
  omega

/-- The two rows at a plain column. -/
theorem G7_apply (c : Dev nD) (j : Fin 128) :
    G7 V c (ix2 (0 : Fin 1) j) = Cert.Spec.s1 (msgV V c) (cntV V c) (xV V c) (wlV V c) (wrV V c) (blV V c) j := by
  unfold G7
  exact congrArg (Cert.Spec.s1 (msgV V c) (cntV V c) (xV V c) (wlV V c) (wrV V c) (blV V c)) (Fin.ext rfl)

theorem G8_apply (c : Dev nD) (j : Fin 128) :
    G8 V c (ix2 (0 : Fin 1) j) = Cert.Spec.s2 (msgV V c) (cntV V c) (xV V c) (wlV V c) (wrV V c) (blV V c) j := by
  unfold G8
  exact congrArg (Cert.Spec.s2 (msgV V c) (cntV V c) (xV V c) (wlV V c) (wrV V c) (blV V c)) (Fin.ext rfl)

/-- Reading a one-row window's block of any contents, and its staging buffer, at an index of the block: the block is
    the whole row, so index (0, j) of the block is index (0, j) of the array. -/
theorem read7_apply (t : Fin cfg0.N) (G : S1x128.Idx → EReal) (y : ((cfg0.win 7).xblock (grid0.coords t)).Idx)
    (hy1 : (y 1).val < 128) :
    ((cfg0.win 7).blk t).view.read (Elt Ideal) G y = G (ix2 (0 : Fin 1) (⟨(y 1).val, hy1⟩ : Fin 128)) := by
  show G (((cfg0.win 7).blk t).view.emb y) = G (ix2 (0 : Fin 1) (⟨(y 1).val, hy1⟩ : Fin 128))
  refine congrArg G ?_
  have hy0 : (y 0).val < 1 := (y 0).isLt
  obtain ⟨-, -, -, -, -, -, -, -, -, -, -, -, -, -, e0, e1, -⟩ := idx_facts t
  funext a; apply Fin.ext
  match a with
  | ⟨0, _⟩ => show win0_7.index t (0 : Fin 2) * 1 + 1 * (y 0).val = 0; omega
  | ⟨1, _⟩ => show win0_7.index t (1 : Fin 2) * 128 + 1 * (y 1).val = (y 1).val; omega

theorem cut7_apply (t : Fin cfg0.N) (X : Vec Ideal S1x128 .f32) (y : ((cfg0.win 7).xblock (grid0.coords t)).Idx)
    (hy1 : (y 1).val < 128) :
    (cfg0.win 7).cut (grid0.coords t) X y = X (ix2 (0 : Fin 1) (⟨(y 1).val, hy1⟩ : Fin 128)) := by
  show X ((cfg0.win 7).xinj (grid0.coords t) y) = X (ix2 (0 : Fin 1) (⟨(y 1).val, hy1⟩ : Fin 128))
  refine congrArg X ?_
  have hy0 : (y 0).val < 1 := (y 0).isLt
  funext a
  match a with
  | ⟨0, _⟩ => exact Fin.ext (show (y 0).val = 0 by omega)
  | ⟨1, _⟩ => rfl

theorem read8_apply (t : Fin cfg0.N) (G : S1x128.Idx → EReal) (y : ((cfg0.win 8).xblock (grid0.coords t)).Idx)
    (hy1 : (y 1).val < 128) :
    ((cfg0.win 8).blk t).view.read (Elt Ideal) G y = G (ix2 (0 : Fin 1) (⟨(y 1).val, hy1⟩ : Fin 128)) := by
  show G (((cfg0.win 8).blk t).view.emb y) = G (ix2 (0 : Fin 1) (⟨(y 1).val, hy1⟩ : Fin 128))
  refine congrArg G ?_
  have hy0 : (y 0).val < 1 := (y 0).isLt
  obtain ⟨-, -, -, -, -, -, -, -, -, -, -, -, -, -, -, -, e0, e1⟩ := idx_facts t
  funext a; apply Fin.ext
  match a with
  | ⟨0, _⟩ => show win0_8.index t (0 : Fin 2) * 1 + 1 * (y 0).val = 0; omega
  | ⟨1, _⟩ => show win0_8.index t (1 : Fin 2) * 128 + 1 * (y 1).val = (y 1).val; omega

theorem cut8_apply (t : Fin cfg0.N) (X : Vec Ideal S1x128 .f32) (y : ((cfg0.win 8).xblock (grid0.coords t)).Idx)
    (hy1 : (y 1).val < 128) :
    (cfg0.win 8).cut (grid0.coords t) X y = X (ix2 (0 : Fin 1) (⟨(y 1).val, hy1⟩ : Fin 128)) := by
  show X ((cfg0.win 8).xinj (grid0.coords t) y) = X (ix2 (0 : Fin 1) (⟨(y 1).val, hy1⟩ : Fin 128))
  refine congrArg X ?_
  have hy0 : (y 0).val < 1 := (y 0).isLt
  funext a
  match a with
  | ⟨0, _⟩ => exact Fin.ext (show (y 0).val = 0 by omega)
  | ⟨1, _⟩ => rfl

/-- What the last point writes back to the second output is the row of column sums: the running row after point 49 is
    the sum over all fifty blocks, and the window's one block is the whole row. -/
theorem flushed7_eq (c : Dev nD) (t : Fin cfg0.N) (hf : (cfg0.win 7).flush t = true) :
    (dat0 V c).flushed 7 t = ((cfg0.win 7).blk t).view.read (Elt Ideal) (G7 V c) := by
  have h49 : t.val = 49 := val_of_mod t ((flush0_7 t).mp hf)
  show (cfg0.win 7).cut (grid0.coords t) ((dat0 V c).after 7 t) = _
  rw [after0_7]
  funext y
  have hy1 : (y 1).val < 128 := (y 1).isLt
  rw [read7_apply t (G7 V c) y hy1, G7_apply, cut7_apply t _ y hy1, Acc.outs7, show t.val + 1 = 50 by omega]
  unfold Cert.Spec.s1
  exact sum_blocks V c ⟨(y 1).val, hy1⟩ (fun x => x)

/-- The same for the third output and the squares. -/
theorem flushed8_eq (c : Dev nD) (t : Fin cfg0.N) (hf : (cfg0.win 8).flush t = true) :
    (dat0 V c).flushed 8 t = ((cfg0.win 8).blk t).view.read (Elt Ideal) (G8 V c) := by
  have h49 : t.val = 49 := val_of_mod t ((flush0_8 t).mp hf)
  show (cfg0.win 8).cut (grid0.coords t) ((dat0 V c).after 8 t) = _
  rw [after0_8]
  funext y
  have hy1 : (y 1).val < 128 := (y 1).isLt
  rw [read8_apply t (G8 V c) y hy1, G8_apply, cut8_apply t _ y hy1, Acc.outs8, show t.val + 1 = 50 by omega]
  unfold Cert.Spec.s2
  exact sum_blocks V c ⟨(y 1).val, hy1⟩ (fun x => x * x)

/-- Every index of a one-row output is in the last point's block, which is the whole row. -/
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v22_1).slice (win0_7.rect t)).set ↔ _
  rw [View.set_slice_whole, Rect.mem_set_unit]
  exact Iff.rfl

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v22_2).slice (win0_8.rect t)).set ↔ _
  rw [View.set_slice_whole, Rect.mem_set_unit]
  exact Iff.rfl

theorem cover7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  refine ⟨tLast, (flush0_7 tLast).mpr rfl, ?_⟩
  rw [mem_blk7]
  obtain ⟨-, -, -, -, -, -, -, -, -, -, -, -, -, -, e0, e1, -⟩ := idx_facts tLast
  intro a
  match a with
  | ⟨0, _⟩ =>
    show win0_7.index tLast (0 : Fin 2) * 1 ≤ (i 0).val ∧ (i 0).val < win0_7.index tLast (0 : Fin 2) * 1 + 1
    omega
  | ⟨1, _⟩ =>
    show win0_7.index tLast (1 : Fin 2) * 128 ≤ (i 1).val ∧ (i 1).val < win0_7.index tLast (1 : Fin 2) * 128 + 128
    omega

theorem cover8 (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  refine ⟨tLast, (flush0_8 tLast).mpr rfl, ?_⟩
  rw [mem_blk8]
  obtain ⟨-, -, -, -, -, -, -, -, -, -, -, -, -, -, -, -, e0, e1⟩ := idx_facts tLast
  intro a
  match a with
  | ⟨0, _⟩ =>
    show win0_8.index tLast (0 : Fin 2) * 1 ≤ (i 0).val ∧ (i 0).val < win0_8.index tLast (0 : Fin 2) * 1 + 1
    omega
  | ⟨1, _⟩ =>
    show win0_8.index tLast (1 : Fin 2) * 128 ≤ (i 1).val ∧ (i 1).val < win0_8.index tLast (1 : Fin 2) * 128 + 128
    omega

/-- After the grid has run, the second output's row holds the column sums of the pre-activation, -/
theorem final7 (c : Dev nD) (j : Fin 128) :
    (dat0 V c).arrAt 7 cfg0.N (ix2 (0 : Fin 1) j) = Cert.Spec.s1 (msgV V c) (cntV V c) (xV V c) (wlV V c) (wrV V c) (blV V c) j :=
  (congrFun ((dat0 V c).arrAt_eq_of_cover 7 (G7 V c) (flushed7_eq V c) cover7) (ix2 (0 : Fin 1) j)).trans (G7_apply V c j)

/-- and the third's the column sums of its square. -/
theorem final8 (c : Dev nD) (j : Fin 128) :
    (dat0 V c).arrAt 8 cfg0.N (ix2 (0 : Fin 1) j) = Cert.Spec.s2 (msgV V c) (cntV V c) (xV V c) (wlV V c) (wrV V c) (blV V c) j :=
  (congrFun ((dat0 V c).arrAt_eq_of_cover 8 (G8 V c) (flushed8_eq V c) cover8) (ix2 (0 : Fin 1) j)).trans (G8_apply V c j)

end Region

end Cert.KernelIdeal.R0

end
-- ==== Proof.Region1Final.lean ====
/- The array the second kernel leaves when its grid has run, entry by entry.

   The grid has 50 points. At point t the kernel reads rows 2000 t … 2000 t + 1999 of the pre-activation, the whole scale
   row and the whole shift row, and writes rows 2000 t … 2000 t + 1999 of its output: each entry the leaky rectifier of
   the pre-activation's entry times its column's scale plus its column's shift. The 50 blocks of rows tile the 100000
   rows, so after the last point entry (i, j) of the output is leaky (h i j · scale j + shift j). -/
import proofs.«165079_j24068996727347_1_alg».proof.Proof.KernelNames
import proofs.«165079_j24068996727347_1_alg».proof.Proof.Payloads
import Idealize.ShloMosaic.Lib.Pipeline.Value

set_option maxRecDepth 16384

noncomputable section

namespace Cert.KernelIdeal.R1

open Cert.KernelIdeal Cert.KernelIdeal.Gen Cert.KernelIdeal.Names
open Idealize.ShloMosaic Idealize.ShloMosaic.TcCoe Idealize.ShloMosaic.ValueIdx Idealize.SL.Sem
open Idealize.ShloMosaic.Pipeline (Dat)

/-- The offsets of the body's one load and one store rectangle are all zero. -/
theorem offsets_zero : (![0, 0] : Fin 2 → Nat) = fun _ => 0 := funext fun a => by fin_cases a <;> rfl

/-- One store through the whole staging buffer, of loads through the whole input buffers: what the body leaves is
    its arithmetic applied to the three input blocks themselves. -/
theorem out_eq_pay (x0 : Vec Ideal S2000x128 .f32) (x1 x2 : Vec Ideal S1x128 .f32) :
    out1_3 (F := Ideal) x0 x1 x2 = k1_pay1 (F := Ideal) x0 x1 x2 := by
  unfold out1_3
  rw [View.canon_unit_zero offsets_zero]
  simp only [View.ld_unit_zero (S := S2000x128) offsets_zero, View.ld_unit_zero (S := S1x128) offsets_zero]

/-- The body's arithmetic at any index of the block, the index given by its two coordinates. -/
theorem pay_at (x0 : Vec Ideal S2000x128 .f32) (x1 x2 : Vec Ideal S1x128 .f32) (y : S2000x128.Idx) :
    k1_pay1 (F := Ideal) x0 x1 x2 y
      = Cert.Spec.leaky (x0 (ix2 (y 0) (y 1)) * x1 (ix2 (0 : Fin 1) (y 1)) + x2 (ix2 (0 : Fin 1) (y 1))) := by
  obtain ⟨r, k, rfl⟩ : ∃ (r : Fin 2000) (k : Fin 128), y = ix2 r k := ⟨y 0, y 1, eq_ix2 y⟩
  exact Pay.k1pay_apply x0 x1 x2 r k

/-- The index maps over the 50 grid points: the pre-activation's window and the output's sit at block row t, block
    column 0; the scale row's and the shift row's windows at block (0, 0) throughout. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Region
variable (V : (c : Dev nD) → (b : Ref sig .tc) → Buf (Elt Ideal) ((c : Thread nD τ).loc b))

/-- The three input blocks at a grid point, at their literal types. -/
abbrev hB (c : Dev nD) (t : Fin cfg1.N) : Vec Ideal S2000x128 .f32 := iblk1 V c 0 t
abbrev scaleB (c : Dev nD) (t : Fin cfg1.N) : Vec Ideal S1x128 .f32 := iblk1 V c 1 t
abbrev shiftB (c : Dev nD) (t : Fin cfg1.N) : Vec Ideal S1x128 .f32 := iblk1 V c 2 t

/-- Row r of the pre-activation's block at point t is row 2000 t + r of the array. -/
theorem hB_apply (c : Dev nD) (t : Fin cfg1.N) (r : Fin 2000) (k : Fin 128) (h : 2000 * t.val + r.val < 100000) :
    hB V c t (ix2 r k) = V c main_v22_0 (ix2 ⟨2000 * t.val + r.val, h⟩ k) := by
  show V c main_v22_0 (((cfg1.win 0).blk t).view.emb (ix2 r k)) = V c main_v22_0 (ix2 ⟨2000 * t.val + r.val, h⟩ k)
  refine congrArg _ ?_
  obtain ⟨e0, e1, -⟩ := index_maps t
  funext a; apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

/-- The scale row's block is the whole row at every point. -/
theorem scaleB_apply (c : Dev nD) (t : Fin cfg1.N) (k : Fin 128) :
    scaleB V c t (ix2 (0 : Fin 1) k) = V c main_v37 (ix2 (0 : Fin 1) k) := by
  show V c main_v37 (((cfg1.win 1).blk t).view.emb (ix2 (0 : Fin 1) k)) = V c main_v37 (ix2 (0 : Fin 1) k)
  refine congrArg _ ?_
  obtain ⟨-, -, e2, e3, -⟩ := index_maps t
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The shift row's block is the whole row at every point. -/
theorem shiftB_apply (c : Dev nD) (t : Fin cfg1.N) (k : Fin 128) :
    shiftB V c t (ix2 (0 : Fin 1) k) = V c main_v38 (ix2 (0 : Fin 1) k) := by
  show V c main_v38 (((cfg1.win 2).blk t).view.emb (ix2 (0 : Fin 1) k)) = V c main_v38 (ix2 (0 : Fin 1) k)
  refine congrArg _ ?_
  obtain ⟨-, -, -, -, e4, e5, -⟩ := index_maps t
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- The array the region leaves, as one function of the index: the leaky affine map of the pre-activation. -/
abbrev leakyAffine (c : Dev nD) : S100000x128.Idx → EReal := fun idx =>
  Cert.Spec.leaky (hV V c (idx 0) (idx 1) * scaleV V c (idx 1) + shiftV V c (idx 1))

/-- What point t writes back is block t of that function. -/
theorem flushed_eq (c : Dev nD) (t : Fin cfg1.N) :
    (dat1 V c).flushed 3 t = ((cfg1.win 3).blk t).view.read (Elt Ideal) (leakyAffine V c) := by
  show (cfg1.win 3).cut (grid1.coords t) ((dat1 V c).after 3 t) = _
  rw [after1_3, out_eq_pay]
  funext y
  show k1_pay1 (F := Ideal) (hB V c t) (scaleB V c t) (shiftB V c t) y = leakyAffine V c (((cfg1.win 3).blk t).view.emb y)
  refine (pay_at (hB V c t) (scaleB V c t) (shiftB V c t) y).trans ?_
  have hy0 : (y 0).val < 2000 := (y 0).isLt
  have ht : t.val < 50 := t.isLt
  have hrow : 2000 * t.val + (y 0).val < 100000 := by omega
  have hemb : ((cfg1.win 3).blk t).view.emb y = ix2 ⟨2000 * t.val + (y 0).val, hrow⟩ (y 1) := by
    obtain ⟨-, -, -, -, -, -, e6, e7⟩ := index_maps t
    funext a; apply Fin.ext
    match a with
    | ⟨0, _⟩ => show win1_3.index t (0 : Fin 2) * 2000 + 1 * (y 0).val = 2000 * t.val + (y 0).val; omega
    | ⟨1, _⟩ => show win1_3.index t (1 : Fin 2) * 128 + 1 * (y 1).val = (y 1).val; omega
  rw [hemb, hB_apply V c t (y 0) (y 1) hrow, scaleB_apply V c t (y 1), shiftB_apply V c t (y 1)]

/-- An index of the array is in point t's block iff each coordinate is in the block's range on its axis. -/
theorem mem_block (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v39).slice (win1_3.rect t)).set ↔ _
  rw [View.set_slice_whole, Rect.mem_set_unit]
  exact Iff.rfl

/-- The 50 blocks of 2000 rows tile the 100000 rows: row i lies in the block of point i / 2000, and every point
    writes its block back. -/
theorem blocks_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hq : (i 0).val / 2000 < cfg1.N := by show (i 0).val / 2000 < 50; omega
  refine ⟨⟨(i 0).val / 2000, hq⟩, flush1_3 _, ?_⟩
  rw [mem_block]
  obtain ⟨-, -, -, -, -, -, e6, e7⟩ := index_maps ⟨(i 0).val / 2000, hq⟩
  have e6' : win1_3.index ⟨(i 0).val / 2000, hq⟩ (0 : Fin 2) = (i 0).val / 2000 := e6
  intro a
  match a with
  | ⟨0, _⟩ =>
    show win1_3.index ⟨(i 0).val / 2000, hq⟩ (0 : Fin 2) * 2000 ≤ (i 0).val
      ∧ (i 0).val < win1_3.index ⟨(i 0).val / 2000, hq⟩ (0 : Fin 2) * 2000 + 2000
    omega
  | ⟨1, _⟩ =>
    show win1_3.index ⟨(i 0).val / 2000, hq⟩ (1 : Fin 2) * 128 ≤ (i 1).val
      ∧ (i 1).val < win1_3.index ⟨(i 0).val / 2000, hq⟩ (1 : Fin 2) * 128 + 128
    omega

/-- The whole array after the grid has run. -/
theorem final_array (c : Dev nD) : (dat1 V c).arrAt 3 cfg1.N = leakyAffine V c :=
  (dat1 V c).arrAt_eq_of_cover 3 (leakyAffine V c) (fun t _ => flushed_eq V c t) blocks_cover

/-- Entry (i, j) of the array the second kernel leaves: the leaky rectifier of the pre-activation's entry times the
    scale of its column plus the shift of its column. -/
theorem final3 (c : Dev nD) (i : Fin 100000) (j : Fin 128) :
    (dat1 V c).arrAt 3 cfg1.N (ix2 i j) = Cert.Spec.leaky (hV V c i j * scaleV V c j + shiftV V c j) := by
  rw [final_array]

end Region

end Cert.KernelIdeal.R1

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.HostStretch.lean ====
/- What the host operations around the two kernels compute.

   The program runs a first stretch of host operations, the first kernel, a second stretch, and the second kernel.
   This module reads the nine arrays the kernels are entered with at plain coordinates. The six arrays of the first
   kernel are functions of the launch memory: the node features untouched, the summed messages and the neighbour
   counts (two scatter-adds over the edge list, kept as the reference's own terms for the same operations), the two
   weight matrices transposed, and the bias as a row. The three arrays of the second kernel are functions of what the
   first kernel left: the pre-activation untouched, and the batch normalisation's scale and shift rows computed from
   the two rows of column sums. -/
import proofs.«165079_j24068996727347_1_alg».proof.Proof.KernelNames
import proofs.«165079_j24068996727347_1_alg».proof.Proof.Gen.ReferenceIdeal.Read
import Idealize.ShloMosaic.Lib.StableHlo.Run
import Idealize.ShloMosaic.Lib.Pipeline.Value
import Idealize.ShloMosaic.Lib.ValueLayout
import proofs.«165079_j24068996727347_1_alg».proof.Proof.LibKeepdims
import proofs.«165079_j24068996727347_1_alg».proof.Proof.LibBiasRow

set_option maxRecDepth 16384

noncomputable section

namespace Cert.KernelIdeal.Host

open Cert.KernelIdeal Cert.KernelIdeal.Gen Cert.KernelIdeal.Names
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Before the first kernel

The first stretch of host operations leaves the node features alone, builds the summed messages and the neighbour
counts by two scatter-adds over the edge list, lays the counts out as a column, transposes the two weight matrices and
lays the bias out as a row. The two scatter-adds are the same operations on the same arguments as the reference's, so
they are carried as the reference's own terms and never opened. -/

/-- The node features reach the first kernel as launched: no host operation writes them. -/
theorem V1_arg0 (c : Dev nD) (i : Fin 100000) (k : Fin 128) :
    V1 m ρ c main_arg0 (ix2 i k) = m ((c.tc : Thread nD τ).loc main_arg0) (ix2 i k) := by
  have e : (V1 m ρ c main_arg0 : S100000x128.Idx → EReal) = m ((c.tc : Thread nD τ).loc main_arg0) := by
    show StableHlo.after hostOps0 (W0 m ρ c) (Proc.devRef .tc main_arg0) = _
    after_results
  exact congrFun e _

/-- The summed messages: the scatter-add, over the edges' targets, of the features gathered at the edges' sources,
    is the reference's term for the same operation, the two programs' dimension records having equal fields. -/
theorem V1_v13 (c : Dev nD) (i : Fin 100000) (k : Fin 128) :
    V1 m ρ c main_v13 (ix2 i k) = Cert.ReferenceIdeal.Read.val_main_v13 (F := Ideal) (m ((c.tc : Thread nD τ).loc main_arg0)) (m ((c.tc : Thread nD τ).loc main_arg1)) (ix2 i k) := by
  have e : (V1 m ρ c main_v13 : S100000x128.Idx → EReal)
      = Cert.ReferenceIdeal.Read.val_main_v13 (F := Ideal) (m ((c.tc : Thread nD τ).loc main_arg0)) (m ((c.tc : Thread nD τ).loc main_arg1)) := by
    show StableHlo.after hostOps0 (W0 m ρ c) (Proc.devRef .tc main_v13) = _
    after_results
    rfl
  exact congrFun e _

/-- The neighbour counts, a scatter-add of ones over the edges' targets, enter as a column: entry (i, 0) of the
    column is entry i of the reference's term for the counts. -/
theorem V1_v18 (c : Dev nD) (i : Fin 100000) :
    V1 m ρ c main_v18 (ix2 i (0 : Fin 1)) = Cert.ReferenceIdeal.Read.val_main_v17 (F := Ideal) (m ((c.tc : Thread nD τ).loc main_arg1)) (ix1 i) := by
  have e : (V1 m ρ c main_v18 : S100000x1.Idx → EReal)
      = shapeCast S100000x1 (Cert.ReferenceIdeal.Read.val_main_v17 (F := Ideal) (m ((c.tc : Thread nD τ).loc main_arg1))) shapeCasts_S100000_S100000x1 := by
    show StableHlo.after hostOps0 (W0 m ρ c) (Proc.devRef .tc main_v18) = _
    after_results
    rfl
  rw [e]
  exact Cert.Keepdims.shapeCast_a_a1_apply _ _ i 0

/-- The first weight matrix enters transposed: entry (k, j) of the array is entry (j, k) of the matrix as launched. -/
theorem V1_v19 (c : Dev nD) (k j : Fin 128) :
    V1 m ρ c main_v19 (ix2 k j) = m ((c.tc : Thread nD τ).loc main_arg2) (ix2 j k) := by
  have e : (V1 m ρ c main_v19 : S128x128.Idx → EReal)
      = transpose S128x128 [1, 0] (m ((c.tc : Thread nD τ).loc main_arg2) : S128x128.Idx → EReal) transposes_S128x128_S128x128_1_0 := by
    show StableHlo.after hostOps0 (W0 m ρ c) (Proc.devRef .tc main_v19) = _
    after_results
  rw [e]
  refine transpose_apply _ _ _ (ix2 k j) (ix2 j k) fun b => ?_
  match b with
  | ⟨0, _⟩ => rfl
  | ⟨1, _⟩ => rfl

/-- The second weight matrix likewise. -/
theorem V1_v20 (c : Dev nD) (k j : Fin 128) :
    V1 m ρ c main_v20 (ix2 k j) = m ((c.tc : Thread nD τ).loc main_arg4) (ix2 j k) := by
  have e : (V1 m ρ c main_v20 : S128x128.Idx → EReal)
      = transpose S128x128 [1, 0] (m ((c.tc : Thread nD τ).loc main_arg4) : S128x128.Idx → EReal) transposes_S128x128_S128x128_1_0 := by
    show StableHlo.after hostOps0 (W0 m ρ c) (Proc.devRef .tc main_v20) = _
    after_results
  rw [e]
  refine transpose_apply _ _ _ (ix2 k j) (ix2 j k) fun b => ?_
  match b with
  | ⟨0, _⟩ => rfl
  | ⟨1, _⟩ => rfl

/-- The bias enters as one row: entry (0, j) of the row is entry j of the bias as launched. -/
theorem V1_v21 (c : Dev nD) (j : Fin 128) :
    V1 m ρ c main_v21 (ix2 (0 : Fin 1) j) = m ((c.tc : Thread nD τ).loc main_arg3) (ix1 j) := by
  have e : (V1 m ρ c main_v21 : S1x128.Idx → EReal)
      = shapeCast S1x128 (m ((c.tc : Thread nD τ).loc main_arg3) : S128.Idx → EReal) shapeCasts_S128_S1x128 := by
    show StableHlo.after hostOps0 (W0 m ρ c) (Proc.devRef .tc main_v21) = _
    after_results
    rfl
  rw [e]
  exact Cert.BiasRow.oneRow_cast_apply _ _ j

/-! ## Between the two kernels

The first kernel leaves the pre-activation and two rows: per feature, the column sum of the pre-activation and the
column sum of its square. The second stretch of host operations turns the two rows into the batch normalisation's scale
and shift: each row is read as a vector and divided by the node count (the mean, and the mean of squares); the
variance is the second minus the square of the first; the scale is gamma times the reciprocal square root of the
variance plus the guard; the shift is beta minus the mean times the scale; both are laid out as rows again. -/

/-- The pre-activation passes the second stretch untouched. -/
theorem V3_v22_0 (c : Dev nD) (i : Fin 100000) (j : Fin 128) :
    V3 m ρ c main_v22_0 (ix2 i j) = W2 m ρ c (Proc.devRef .tc main_v22_0) (ix2 i j) := by
  have e : (V3 m ρ c main_v22_0 : S100000x128.Idx → EReal) = W2 m ρ c (Proc.devRef .tc main_v22_0) := by
    show StableHlo.after hostOps1 (W2 m ρ c) (Proc.devRef .tc main_v22_0) = _
    after_results
  exact congrFun e _

/-! The steps of the second stretch, named: the two affine parameters walked back to the launch memory, and the mean,
    scale and shift vectors as functions of the arrays they are computed from, each read at an entry. -/

namespace HostStretch

/-- Gamma is as launched when the second stretch reads it: it is no array of the first kernel, and the first stretch
    does not write it. -/
theorem W2_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results)

/-- Beta likewise. -/
theorem W2_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)

/-- A row of column sums read as a vector and divided entrywise by the node count. -/
def meanVec (B : FVec Ideal S1x128 .f32) : FVec Ideal S128 .f32 :=
  Host.divf (shapeCast S128 B shapeCasts_S1x128_S128)
    (broadcastInDim S128 ![] bcast_S_S128 (constant (F := Ideal) S_ .f32 0x47C35000#32))

/-- Entry j of that vector is entry (0, j) of the row over the node count. -/
theorem meanVec_apply (B : FVec Ideal S1x128 .f32) (j : Fin 128) :
    meanVec B (ix1 j) = Ideal.div (B (ix2 (0 : Fin 1) j)) Cert.Spec.nodesW := by
  show Ideal.div (shapeCast S128 B shapeCasts_S1x128_S128 (ix1 j)) _ = _
  rw [shapeCast_apply B shapeCasts_S1x128_S128 (ix1 j) (ix2 (0 : Fin 1) j) (by
    rw [Shape.rowMajor_val_two, Shape.rowMajor_val_one]
    show 0 * 128 + j.val = j.val
    omega)]
  rfl

/-- The scale vector from gamma, the row of sums and the row of sums of squares: gamma times the reciprocal square
    root of (mean of squares minus squared mean, plus the guard). -/
def scaleVec (A : FVec Ideal S128 .f32) (B1 B2 : FVec Ideal S1x128 .f32) : FVec Ideal S128 .f32 :=
  mulf A (Host.rsqrt (addf (subf (meanVec B2) (mulf (meanVec B1) (meanVec B1)))
    (broadcastInDim S128 ![] bcast_S_S128 (constant (F := Ideal) S_ .f32 0x3727C5AC#32))))

theorem scaleVec_apply (A : FVec Ideal S128 .f32) (B1 B2 : FVec Ideal S1x128 .f32) (j : Fin 128) :
    scaleVec A B1 B2 (ix1 j)
      = A (ix1 j) * Ideal.rsqrt ((Ideal.div (B2 (ix2 (0 : Fin 1) j)) Cert.Spec.nodesW
          - Ideal.div (B1 (ix2 (0 : Fin 1) j)) Cert.Spec.nodesW * Ideal.div (B1 (ix2 (0 : Fin 1) j)) Cert.Spec.nodesW) + Cert.Spec.epsW) := by
  show A (ix1 j) * Ideal.rsqrt ((meanVec B2 (ix1 j) - meanVec B1 (ix1 j) * meanVec B1 (ix1 j)) + _) = _
  rw [meanVec_apply, meanVec_apply]
  rfl

/-- The scale row the second kernel is entered with is the scale vector laid out as one row. -/
theorem V3_v37_eq (c : Dev nD) :
    (V3 m ρ c main_v37 : S1x128.Idx → EReal)
      = shapeCast S1x128 (scaleVec (W2 m ρ c (Proc.devRef .tc main_arg5)) (W2 m ρ c (Proc.devRef .tc main_v22_1))
          (W2 m ρ c (Proc.devRef .tc main_v22_2))) shapeCasts_S128_S1x128 := by
  show StableHlo.after hostOps1 (W2 m ρ c) (Proc.devRef .tc main_v37) = _
  after_results
  rfl

/-- Entry j of the scale row is entry j of the scale vector. -/
theorem scaleV_read (c : Dev nD) (j : Fin 128) :
    scaleV (V3 m ρ) c j = scaleVec (W2 m ρ c (Proc.devRef .tc main_arg5)) (W2 m ρ c (Proc.devRef .tc main_v22_1))
          (W2 m ρ c (Proc.devRef .tc main_v22_2)) (ix1 j) := by
  show (V3 m ρ c main_v37 : S1x128.Idx → EReal) (ix2 (0 : Fin 1) j) = _
  rw [V3_v37_eq]
  exact Cert.BiasRow.oneRow_cast_apply _ _ j

/-- The shift vector from beta, gamma and the two rows of sums: beta minus the mean times the scale vector. -/
def shiftVec (A6 A5 : FVec Ideal S128 .f32) (B1 B2 : FVec Ideal S1x128 .f32) : FVec Ideal S128 .f32 :=
  subf A6 (mulf (meanVec B1) (scaleVec A5 B1 B2))

theorem shiftVec_apply (A6 A5 : FVec Ideal S128 .f32) (B1 B2 : FVec Ideal S1x128 .f32) (j : Fin 128) :
    shiftVec A6 A5 B1 B2 (ix1 j)
      = A6 (ix1 j) - Ideal.div (B1 (ix2 (0 : Fin 1) j)) Cert.Spec.nodesW * scaleVec A5 B1 B2 (ix1 j) := by
  show A6 (ix1 j) - meanVec B1 (ix1 j) * scaleVec A5 B1 B2 (ix1 j) = _
  rw [meanVec_apply]

/-- The shift row the second kernel is entered with is the shift vector laid out as one row. -/
theorem V3_v38_eq (c : Dev nD) :
    (V3 m ρ c main_v38 : S1x128.Idx → EReal)
      = shapeCast S1x128 (shiftVec (W2 m ρ c (Proc.devRef .tc main_arg6)) (W2 m ρ c (Proc.devRef .tc main_arg5))
          (W2 m ρ c (Proc.devRef .tc main_v22_1)) (W2 m ρ c (Proc.devRef .tc main_v22_2))) shapeCasts_S128_S1x128 := by
  show StableHlo.after hostOps1 (W2 m ρ c) (Proc.devRef .tc main_v38) = _
  after_results_simp
  rfl

/-- Entry j of the shift row is entry j of the shift vector. -/
theorem shiftV_read (c : Dev nD) (j : Fin 128) :
    shiftV (V3 m ρ) c j = shiftVec (W2 m ρ c (Proc.devRef .tc main_arg6)) (W2 m ρ c (Proc.devRef .tc main_arg5))
          (W2 m ρ c (Proc.devRef .tc main_v22_1)) (W2 m ρ c (Proc.devRef .tc main_v22_2)) (ix1 j) := by
  show (V3 m ρ c main_v38 : S1x128.Idx → EReal) (ix2 (0 : Fin 1) j) = _
  rw [V3_v38_eq]
  exact Cert.BiasRow.oneRow_cast_apply _ _ j

end HostStretch

open HostStretch

/-- The scale: gamma times the reciprocal square root of the variance (mean of squares minus squared mean) plus the
    guard, the means taken from the two rows of sums the first kernel leaves. -/
theorem V3_v37 (c : Dev nD) (j : Fin 128) :
    scaleV (V3 m ρ) c j
      = gamM m c j * Ideal.rsqrt ((Ideal.div (s2W m ρ c j) Cert.Spec.nodesW
            - Ideal.div (s1W m ρ c j) Cert.Spec.nodesW * Ideal.div (s1W m ρ c j) Cert.Spec.nodesW) + Cert.Spec.epsW) := by
  rw [scaleV_read, scaleVec_apply, W2_arg5]

/-- The shift: beta minus the mean times the scale. -/
theorem V3_v38 (c : Dev nD) (j : Fin 128) :
    shiftV (V3 m ρ) c j = betM m c j - Ideal.div (s1W m ρ c j) Cert.Spec.nodesW * scaleV (V3 m ρ) c j := by
  rw [shiftV_read, shiftVec_apply, W2_arg6, scaleV_read]

end Cert.KernelIdeal.Host

end
-- ==== Proof.KernelValue.lean ====
/- The kernel program's result array, entry by entry, as the layer's first form.

   The program is: host operations (the two scatter-adds that make the summed messages and the neighbour counts, two
   transposes, two reshapes), a first kernel over 50 blocks of 2000 nodes that writes the pre-activation h and accumulates
   its column sums and column sums of squares, host operations that turn those two rows into a scale row and a shift row
   (mean, variance as mean of squares minus squared mean, reciprocal square root, the affine parameters folded in), and a
   second kernel over the same 50 blocks that applies scale, shift and the leaky rectifier. Reading the result backwards
   through these four stretches gives, at (i, j): leaky (h i j * scale j + shift j) over the launch arrays. -/
import proofs.«165079_j24068996727347_1_alg».proof.Proof.KernelNames
import proofs.«165079_j24068996727347_1_alg».proof.Proof.Region0Final
import proofs.«165079_j24068996727347_1_alg».proof.Proof.Region1Final
import proofs.«165079_j24068996727347_1_alg».proof.Proof.HostStretch
import proofs.«165079_j24068996727347_1_alg».proof.Proof.Gen.ReferenceIdeal.Read
import proofs.«165079_j24068996727347_1_alg».proof.Proof.Spec
import Idealize.ShloMosaic.Lib.ValueIdx

set_option maxRecDepth 16384

noncomputable section

open Cert.KernelIdeal Cert.KernelIdeal.Gen Cert.KernelIdeal.Names
open Idealize.ShloMosaic Idealize.ShloMosaic.TcCoe Idealize.ShloMosaic.ValueIdx Idealize.SL.Sem
open Idealize.ShloMosaic.Pipeline (Dat)

namespace Cert.KernelIdeal.KValue

variable (m : (ℓ : Loc nD τ sig) → Buf (Elt Ideal) ℓ) (ρ : Dev nD → PrngReg)

/-- The layer's inputs as the program is launched with them: the summed messages and the neighbour counts are the two
    scatter-adds of the edge list (carried as opaque functions of the node features and the edge list), the rest are
    argument arrays read at plain coordinates. -/
abbrev msgM (c : Dev nD) : Fin 100000 → Fin 128 → EReal := fun i k =>
  Cert.ReferenceIdeal.Read.val_main_v13 (F := Ideal) (m ((c.tc : Thread nD τ).loc main_arg0)) (m ((c.tc : Thread nD τ).loc main_arg1)) (ix2 i k)
abbrev cntM (c : Dev nD) : Fin 100000 → EReal := fun i =>
  Cert.ReferenceIdeal.Read.val_main_v17 (F := Ideal) (m ((c.tc : Thread nD τ).loc main_arg1)) (ix1 i)
abbrev xM (c : Dev nD) : Fin 100000 → Fin 128 → EReal := fun i k => m ((c.tc : Thread nD τ).loc main_arg0) (ix2 i k)
abbrev wlM (c : Dev nD) : Fin 128 → Fin 128 → EReal := fun j k => m ((c.tc : Thread nD τ).loc main_arg2) (ix2 j k)
abbrev wrM (c : Dev nD) : Fin 128 → Fin 128 → EReal := fun j k => m ((c.tc : Thread nD τ).loc main_arg4) (ix2 j k)
abbrev blM (c : Dev nD) : Fin 128 → EReal := fun j => m ((c.tc : Thread nD τ).loc main_arg3) (ix1 j)

/-- What the first kernel is entered with is what the host made of the launch memory. -/
theorem msgV_eq (c : Dev nD) : msgV (V1 m ρ) c = msgM m c := funext fun i => funext fun k => Host.V1_v13 m ρ c i k
theorem cntV_eq (c : Dev nD) : cntV (V1 m ρ) c = cntM m c := funext fun i => Host.V1_v18 m ρ c i
theorem xV_eq (c : Dev nD) : xV (V1 m ρ) c = xM m c := funext fun i => funext fun k => Host.V1_arg0 m ρ c i k
theorem wlV_eq (c : Dev nD) : wlV (V1 m ρ) c = wlM m c := funext fun j => funext fun k => Host.V1_v19 m ρ c k j
theorem wrV_eq (c : Dev nD) : wrV (V1 m ρ) c = wrM m c := funext fun j => funext fun k => Host.V1_v20 m ρ c k j
theorem blV_eq (c : Dev nD) : blV (V1 m ρ) c = blM m c := funext fun j => Host.V1_v21 m ρ c j

/-- The pre-activation the second kernel reads is the first kernel's first result: the specification's h. -/
theorem hV_eq (c : Dev nD) (i : Fin 100000) (j : Fin 128) :
    hV (V3 m ρ) c i j = Cert.Spec.h (msgM m c) (cntM m c) (xM m c) (wlM m c) (wrM m c) (blM m c) i j := by
  show V3 m ρ c main_v22_0 (ix2 i j) = _
  rw [Host.V3_v22_0]
  have e := congrFun (W2_arr m ρ c 6) (ix2 i j)
  refine e.trans ?_
  rw [R0.final6, msgV_eq, cntV_eq, xV_eq, wlV_eq, wrV_eq, blV_eq]

/-- The two accumulated rows are the column sums of h and of its square. -/
theorem s1W_eq (c : Dev nD) (j : Fin 128) :
    s1W m ρ c j = Cert.Spec.s1 (msgM m c) (cntM m c) (xM m c) (wlM m c) (wrM m c) (blM m c) j := by
  have e := congrFun (W2_arr m ρ c 7) (ix2 (0 : Fin 1) j)
  refine e.trans ?_
  rw [R0.final7, msgV_eq, cntV_eq, xV_eq, wlV_eq, wrV_eq, blV_eq]
theorem s2W_eq (c : Dev nD) (j : Fin 128) :
    s2W m ρ c j = Cert.Spec.s2 (msgM m c) (cntM m c) (xM m c) (wlM m c) (wrM m c) (blM m c) j := by
  have e := congrFun (W2_arr m ρ c 8) (ix2 (0 : Fin 1) j)
  refine e.trans ?_
  rw [R0.final8, msgV_eq, cntV_eq, xV_eq, wlV_eq, wrV_eq, blV_eq]

/-- So the scale and shift rows the host hands the second kernel are the specification's (first form). -/
theorem scaleV_eq (c : Dev nD) (j : Fin 128) :
    scaleV (V3 m ρ) c j = Cert.Spec.scale (msgM m c) (cntM m c) (xM m c) (wlM m c) (wrM m c) (blM m c) (gamM m c) j := by
  rw [Host.V3_v37, s1W_eq, s2W_eq]
  rfl
theorem shiftV_eq (c : Dev nD) (j : Fin 128) :
    shiftV (V3 m ρ) c j = Cert.Spec.shift (msgM m c) (cntM m c) (xM m c) (wlM m c) (wrM m c) (blM m c) (gamM m c) (betM m c) j := by
  rw [Host.V3_v38, scaleV_eq, s1W_eq]
  rfl

/-- The result array, entry by entry, is the specification's first form of the layer. -/
theorem result_apply (c : Dev nD) (i : Fin 100000) (j : Fin 128) :
    W4 m ρ c (Proc.devRef .tc main_v39) (ix2 i j)
      = Cert.Spec.outK (msgM m c) (cntM m c) (xM m c) (wlM m c) (wrM m c) (blM m c) (gamM m c) (betM m c) i j := by
  have e := congrFun (W4_arr m ρ c 3) (ix2 i j)
  refine e.trans ?_
  rw [R1.final3, hV_eq, scaleV_eq, shiftV_eq]
  rfl

end Cert.KernelIdeal.KValue

end
-- ==== Proof.Finite.lean ====
/- Every number the layer's algebra touches is a real, not an infinity.

   The float inputs: the precondition says all(|x| < +infinity) of each float argument, a reduction by "and" of the
   entrywise comparisons into one scalar; it is 1, so each comparison is 1, and an extended real whose absolute value
   max(x, -x) lies strictly below the top element is neither infinity.

   The two scatter-add results: an accumulating scatter at one element is the operand's element plus a finite sum of
   update elements. The operands are zeros; the updates are gathered entries of the real-valued x (the summed messages)
   or the constant 1.0 (the neighbour counts). A finite sum of reals is a real, so both results are real-valued. The
   index set of the sum is never enumerated: it stays an abstract finite set. -/
import proofs.«165079_j24068996727347_1_alg».proof.Defs
import proofs.«165079_j24068996727347_1_alg».proof.Proof.Gen.ReferenceIdeal.Read
import Idealize.ShloMosaic.Lib.ReduceAll
import Idealize.ShloMosaic.Lib.ValueIdx
import Idealize.ShloMosaic.PureOps.Ideal.Laws
import Mathlib.Data.EReal.Basic
import Mathlib.Data.EReal.Operations
import Mathlib.Algebra.BigOperators.Group.Finset.Basic

noncomputable section

namespace Cert.Finite

open Idealize.ShloMosaic Idealize.ShloMosaic.ValueIdx

/-! ## Reals inside the extended reals -/

/-- the sum of two reals, read in the extended reals, is a real -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- a finite sum of reals, read in the extended reals, is a real -/
theorem real_sum {ι : Type} (s : Finset ι) (f : ι → EReal) (hf : ∀ e ∈ s, ∃ r : ℝ, f e = (r : EReal)) :
    ∃ r : ℝ, ∑ e ∈ s, f e = (r : EReal) := by
  classical
  induction s using Finset.induction_on with
  | empty => exact ⟨0, by rw [Finset.sum_empty]; rfl⟩
  | insert a s ha ih =>
    rw [Finset.sum_insert ha]
    exact real_add (hf a (Finset.mem_insert_self a s)) (ih fun e he => hf e (Finset.mem_insert_of_mem he))

/-- the f32 pattern of +infinity denotes the top element -/
theorem ofBits_inf : Ideal.ofBits .f32 0x7F800000#32 = (⊤ : EReal) := by
  simp [Ideal.ofBits, Ideal.ieee]

/-- a pattern whose exponent field is not all ones denotes a real (a zero, a subnormal or a normal number) -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- the f32 pattern of 1.0 denotes a real -/
theorem ofBits_one_real : ∃ r : ℝ, Ideal.ofBits .f32 0x3F800000#32 = (r : EReal) :=
  ieee_real 8 23 (0x3F800000#32 : BitVec 32) (by decide)

/-- the f32 pattern of +0.0 denotes a real -/
theorem ofBits_zero_real : ∃ r : ℝ, Ideal.ofBits .f32 0x00000000#32 = (r : EReal) :=
  ieee_real 8 23 (0x00000000#32 : BitVec 32) (by decide)

/-- |x| < +infinity in the extended reals says x is a real: both infinities have absolute value +infinity -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- An accumulating scatter at one element is that element of the operand plus a finite sum of update elements (whichever
    the start indices select): real where the operand's element and every update element are. The index set of the sum is
    kept abstract. -/
theorem scatterAdd_real {s si su : Shape} (d : ScatterDims s si su) {w : Nat} (x : s.Idx → EReal) (idx : IVec si w)
    (upd : su.Idx → EReal) (i : s.Idx) (hx : ∃ r : ℝ, x i = (r : EReal)) (hu : ∀ j, ∃ r : ℝ, upd j = (r : EReal)) :
    ∃ r : ℝ, Host.scatterAdd (F := Ideal) (φ := .f32) d x idx upd i = (r : EReal) := by
  show ∃ r : ℝ, x i + ∑ j ∈ Finset.univ.filter (fun j => d.resultIdx? j idx = some i), upd j = (r : EReal)
  generalize Finset.univ.filter (fun j => d.resultIdx? j idx = some i) = S
  exact real_add hx (real_sum S upd fun j _ => hu j)

/-- A gather's element is an element of its operand (at the start index, clamped): real where every operand element is. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-! ## The float inputs -/

/-- the scalar shape has exactly one index -/
theorem scalarIdx_subsingleton : Subsingleton (⟨0, ![]⟩ : Shape).Idx := ⟨fun a b => funext fun d => d.elim0⟩

/-- One conjunct of the precondition, all(|x| < +infinity) over an array, read back at an entry: the reduction by
    "and" into the one scalar is 1, so the comparison is 1 at every entry, so every entry is a real. -/
theorem entries_real {s t u : Shape} {axes : List (Fin s.rank)} [Subsingleton t.Idx] (x bnd : FVec Ideal s .f32)
    (hb : ∀ i, bnd i = (⊤ : EReal)) (init : IVec u 1) (h : s.ReducesTo axes t) (hu : 0 < u.numel) (j : t.Idx)
    (e : Host.reduce IntOp.andi (cmpf .olt (Host.absf x) bnd) init h hu j = 1#1) (i : s.Idx) :
    ∃ r : ℝ, x i = (r : EReal) := by
  have hi : cmpf .olt (Host.absf x) bnd i = 1#1 := Host.reduce_andi_all _ init h hu j e i
  have hi' : Ideal.cmp .olt (max (x i) (-(x i))) (bnd i) = 1#1 := hi
  rw [hb i] at hi'
  exact real_of_abs_lt_top (x i) hi'

/-- the bound every entry is compared with: the +infinity pattern, broadcast from a scalar -/
theorem bound_top {s : Shape} (bc : Cert.Pre_finite_inputs.S_.BroadcastsInDim s (![] : Fin 0 → Fin s.rank)) (i : s.Idx) :
    broadcastInDim s ![] bc (constant (F := Ideal) Cert.Pre_finite_inputs.S_ .f32 0x7F800000#32) i = (⊤ : EReal) :=
  ofBits_inf

/-- under the precondition every entry of every float argument of the idealized kernel program is a real -/
theorem pre_real [hP : Cert.Pre_finite_inputs.Facts] [hK : Cert.KernelIdeal.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  haveI := scalarIdx_subsingleton
  have e := congrFun (hpre c) ix0
  dsimp only [Cert.Pre_finite_inputs.fn, Cert.Pre_finite_inputs.fn_part1] at e
  simp only [andi, IntOp.andi_eq_one] at e
  obtain ⟨⟨⟨⟨⟨h0, h2⟩, h3⟩, h4⟩, h5⟩, h6⟩ := e
  exact ⟨entries_real _ _ (bound_top _) _ _ _ _ h0, entries_real _ _ (bound_top _) _ _ _ _ h2,
    entries_real _ _ (bound_top _) _ _ _ _ h3, entries_real _ _ (bound_top _) _ _ _ _ h4,
    entries_real _ _ (bound_top _) _ _ _ _ h5, entries_real _ _ (bound_top _) _ _ _ _ h6⟩

/-! ## The two scatter-add results -/

/-- the summed messages: a scatter-add into zeros of gathered rows of a real-valued x is real-valued -/
theorem msg_real (x0 : (⟨Cert.ReferenceIdeal.S100000x128, .f32⟩ : BufTy).Contents (Elt Ideal)) (x1 : (⟨Cert.ReferenceIdeal.S2x1600000, .i32⟩ : BufTy).Contents (Elt Ideal))
    (hx : ∀ i, ∃ r : ℝ, x0 i = (r : EReal)) (i : Fin 100000) (k : Fin 128) :
    ∃ r : ℝ, Cert.ReferenceIdeal.Read.val_main_v13 (F := Ideal) x0 x1 (ix2 i k) = (r : EReal) := by
  unfold Cert.ReferenceIdeal.Read.val_main_v13
  refine scatterAdd_real _ _ _ _ _ ?_ fun j => ?_
  · rw [Cert.ReferenceIdeal.Read.val_main_v11_apply, Cert.ReferenceIdeal.Read.val_main_cst_apply]
    exact ofBits_zero_real
  · exact gather_real Cert.ReferenceIdeal.gather_S100000x128_S1600000x1_S1600000x128_1_0_n_n_0_1_1128 x0
      (Cert.ReferenceIdeal.Read.val_main_v9 (F := Ideal) x1) hx j

/-- the neighbour counts: a scatter-add of ones into zeros is real-valued -/
theorem cnt_real (x1 : (⟨Cert.ReferenceIdeal.S2x1600000, .i32⟩ : BufTy).Contents (Elt Ideal)) (i : Fin 100000) :
    ∃ r : ℝ, Cert.ReferenceIdeal.Read.val_main_v17 (F := Ideal) x1 (ix1 i) = (r : EReal) := by
  unfold Cert.ReferenceIdeal.Read.val_main_v17
  refine scatterAdd_real _ _ _ _ _ ?_ fun j => ?_
  · rw [Cert.ReferenceIdeal.Read.val_main_v15_apply, Cert.ReferenceIdeal.Read.val_main_cst_2_apply]
    exact ofBits_zero_real
  · rw [Cert.ReferenceIdeal.Read.val_main_v14_apply, Cert.ReferenceIdeal.Read.val_main_cst_1_apply]
    exact ofBits_one_real

end Cert.Finite

end
-- ==== Proof.lean ====
/- A graph layer against its reference, over the extended reals.

   Both programs take node features x (100000 nodes, 128 features), an edge list, two weight matrices with a bias, and
   the two parameters of a batch normalisation. Both first sum, for every node, the features of its in-neighbours and
   count them (the same host operations in both programs), divide the sums by the count raised to at least one, send that
   mean and the node's own features through the two dense maps, and add the bias: the pre-activation h. Both then
   normalise each feature over the 100000 nodes, apply the affine parameters and a leaky rectifier of slope 0.01.

   They differ in three places, all harmless over the reals. The bias is added last in one and between the two products
   in the other (addition of extended reals is commutative and associative). The kernel program computes h and its column
   sums block by block, 2000 nodes at a time, and takes the variance as the mean of squares minus the squared mean, where
   the reference takes the mean of squared deviations: these agree when every h is a real number, by expanding the square.
   And the kernel program folds mean, variance and the affine parameters into one scale and one shift per feature before
   touching h, where the reference centres h first: distributivity, again for real numbers, the variance plus its guard
   being positive so that the reciprocal square root is a real.

   Every h IS a real under the precondition (all float inputs finite): the summed messages and the counts are finite sums
   of reals, the count raised to at least one is not zero, and sums and products of reals are real.

   The three frames are the programs' runs; the idealization rewrote nothing. -/
import proofs.«165079_j24068996727347_1_alg».proof.Defs
import proofs.«165079_j24068996727347_1_alg».proof.Proof.Gen.Kernel
import proofs.«165079_j24068996727347_1_alg».proof.Proof.Gen.Kernel.Skeleton
import proofs.«165079_j24068996727347_1_alg».proof.Proof.Gen.Kernel.Launch
import proofs.«165079_j24068996727347_1_alg».proof.Proof.Gen.Kernel.Points
import proofs.«165079_j24068996727347_1_alg».proof.Proof.Gen.Kernel.Frame
import proofs.«165079_j24068996727347_1_alg».proof.Proof.Gen.KernelIdeal
import proofs.«165079_j24068996727347_1_alg».proof.Proof.Gen.KernelIdeal.Skeleton
import proofs.«165079_j24068996727347_1_alg».proof.Proof.Gen.KernelIdeal.Launch
import proofs.«165079_j24068996727347_1_alg».proof.Proof.Gen.KernelIdeal.Points
import proofs.«165079_j24068996727347_1_alg».proof.Proof.Gen.KernelIdeal.Frame
import proofs.«165079_j24068996727347_1_alg».proof.Proof.Gen.ReferenceIdeal
import proofs.«165079_j24068996727347_1_alg».proof.Proof.Gen.ReferenceIdeal.Run
import proofs.«165079_j24068996727347_1_alg».proof.Proof.Gen.ReferenceIdeal.Read
import proofs.«165079_j24068996727347_1_alg».proof.Proof.Gen.Pre_finite_inputs
import proofs.«165079_j24068996727347_1_alg».proof.Proof.KernelRun
import proofs.«165079_j24068996727347_1_alg».proof.Proof.KernelNames
import proofs.«165079_j24068996727347_1_alg».proof.Proof.Algebra
import proofs.«165079_j24068996727347_1_alg».proof.Proof.RefValue
import proofs.«165079_j24068996727347_1_alg».proof.Proof.KernelValue
import proofs.«165079_j24068996727347_1_alg».proof.Proof.Finite
import Idealize.ShloMosaic.Adequacy
import Idealize.ShloMosaic.Init
import Idealize.ShloMosaic.Lib.ValueIdx

set_option maxRecDepth 16384

noncomputable section

namespace Cert.Proof

open Idealize.ShloMosaic Idealize.ShloMosaic.TcCoe Idealize.ShloMosaic.ValueIdx Idealize.SL.Sem
open Cert.KernelIdeal.Names Cert.KernelIdeal.KValue

/-- The three programs run to the end without a fault and leave their arguments as launched: the two kernel programs by
    their launch over the pipeline's segments, the reference by its straight-line run. -/
theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Over the extended reals the two programs end with the same result array. Entry (i, j) of the kernel program's result
    is the layer in its first form (variance as mean of squares minus squared mean, scale and shift pre-combined), entry
    (i, j) of the reference's is the layer in its second form (variance as mean of squared deviations), both over the same
    summed messages, neighbour counts and parameters. Under the precondition every one of these numbers is a real — the
    inputs by hypothesis, the summed messages and counts as finite sums of reals — and over the reals the two forms agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W4 m ρ c (Proc.devRef .tc Cert.KernelIdeal.main_v39),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq]
  obtain ⟨a0, a1, a2, a3, a4, a5, a6⟩ := hagree c
  rw [a0, a1, a2, a3, a4, a5, a6]
  funext idx
  obtain ⟨i, j, rfl⟩ : ∃ (i : Fin 100000) (j : Fin 128), idx = ix2 i j := ⟨idx 0, idx 1, eq_ix2 idx⟩
  rw [Cert.ReferenceIdeal.RefValue.ref_apply]
  refine Eq.trans ?_ (result_apply m ρ c i j).symm
  obtain ⟨r0, r2, r3, r4, r5, r6⟩ := Cert.Finite.pre_real m hpre c
  choose X hX using fun (i : Fin 100000) (k : Fin 128) => r0 (ix2 i k)
  choose WL hWL using fun (j k : Fin 128) => r2 (ix2 j k)
  choose BL hBL using fun (j : Fin 128) => r3 (ix1 j)
  choose WR hWR using fun (j k : Fin 128) => r4 (ix2 j k)
  choose G hG using fun (j : Fin 128) => r5 (ix1 j)
  choose B hB using fun (j : Fin 128) => r6 (ix1 j)
  choose MS hMS using fun (i : Fin 100000) (k : Fin 128) => Cert.Finite.msg_real _
    (m ((c.tc : Thread Cert.KernelIdeal.nD Cert.KernelIdeal.τ).loc Cert.KernelIdeal.main_arg1)) r0 i k
  choose CN hCN using fun (i : Fin 100000) => Cert.Finite.cnt_real
    (m ((c.tc : Thread Cert.KernelIdeal.nD Cert.KernelIdeal.τ).loc Cert.KernelIdeal.main_arg1)) i
  have e1 : msgM m c = fun i k => ((MS i k : ℝ) : EReal) := funext fun i => funext fun k => hMS i k
  have e2 : cntM m c = fun i => ((CN i : ℝ) : EReal) := funext fun i => hCN i
  have e3 : xM m c = fun i k => ((X i k : ℝ) : EReal) := funext fun i => funext fun k => hX i k
  have e4 : wlM m c = fun j k => ((WL j k : ℝ) : EReal) := funext fun j => funext fun k => hWL j k
  have e5 : wrM m c = fun j k => ((WR j k : ℝ) : EReal) := funext fun j => funext fun k => hWR j k
  have e6 : blM m c = fun j => ((BL j : ℝ) : EReal) := funext fun j => hBL j
  have e7 : gamM m c = fun j => ((G j : ℝ) : EReal) := funext fun j => hG j
  have e8 : betM m c = fun j => ((B j : ℝ) : EReal) := funext fun j => hB j
  show Cert.Spec.outR (msgM m c) (cntM m c) (xM m c) (wlM m c) (wrM m c) (blM m c) (gamM m c) (betM m c) i j
    = Cert.Spec.outK (msgM m c) (cntM m c) (xM m c) (wlM m c) (wrM m c) (blM m c) (gamM m c) (betM m c) i j
  rw [e1, e2, e3, e4, e5, e6, e7, e8]
  exact (Cert.Spec.outK_eq_outR MS CN X WL WR BL G B i j).symm

/-- The claim: the facts the generated modules prove, then the five conjuncts. The idealization rewrote nothing, so
    what it owes is trivially true. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
